-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x512 : Shape := ⟨3, ![32, 512, 512]⟩
abbrev S32x512 : Shape := ⟨2, ![32, 512]⟩
abbrev S_ : Shape := ⟨0, ![]⟩

class Facts : Prop where
  bcast_S_S32x512x512 : S_.BroadcastsInDim S32x512x512 (![] : Fin 0 → Fin S32x512x512.rank)
  reducesTo_S32x512x512_S_d0_1_2 : S32x512x512.ReducesTo [0, 1, 2] S_
  h_S_ : 0 < S_.numel

variable [Facts]

def fn {F : FTy → Type} [FloatOps F] (main_arg0 : FVec F S32x512x512 .f32) (main_arg1 : FVec F S32x512x512 .f32) (main_arg2 : IVec S32x512 1) (main_arg3 : IVec S32x512 1) : IVec S_ 1 :=
  let main_v0 : FVec F S32x512x512 .f32 := Host.absf main_arg0
  let main_cst : FVec F S_ .f32 := constant S_ .f32 0x7F800000#32
  let main_v1 : FVec F S32x512x512 .f32 := broadcastInDim S32x512x512 ![] bcast_S_S32x512x512 main_cst
  let main_v2 : IVec S32x512x512 1 := cmpf .olt main_v0 main_v1
  let main_c : IVec S_ 1 := constantI S_ 1 1#1
  let main_v3 : IVec S_ 1 := (fun x v => Host.reduce IntOp.andi x v reducesTo_S32x512x512_S_d0_1_2 h_S_) main_v2 main_c
  let main_v4 : FVec F S32x512x512 .f32 := Host.absf main_arg1
  let main_cst_0 : FVec F S_ .f32 := constant S_ .f32 0x7F800000#32
  let main_v5 : FVec F S32x512x512 .f32 := broadcastInDim S32x512x512 ![] bcast_S_S32x512x512 main_cst_0
  let main_v6 : IVec S32x512x512 1 := cmpf .olt main_v4 main_v5
  let main_c_1 : IVec S_ 1 := constantI S_ 1 1#1
  let main_v7 : IVec S_ 1 := (fun x v => Host.reduce IntOp.andi x v reducesTo_S32x512x512_S_d0_1_2 h_S_) main_v6 main_c_1
  let main_v8 : IVec S_ 1 := andi main_v3 main_v7
  main_v8
-- ==== Kernel.lean ====
abbrev S32x512x512 : Shape := ⟨3, ![32, 512, 512]⟩
abbrev S32x512 : Shape := ⟨2, ![32, 512]⟩
abbrev S_ : Shape := ⟨0, ![]⟩
abbrev S32x512x1 : Shape := ⟨3, ![32, 512, 1]⟩
abbrev S32x1x512 : Shape := ⟨3, ![32, 1, 512]⟩
abbrev S32x512x2048 : Shape := ⟨3, ![32, 512, 2048]⟩
abbrev S1x512x512 : Shape := ⟨3, ![1, 512, 512]⟩
abbrev S1x512x1 : Shape := ⟨3, ![1, 512, 1]⟩
abbrev S1x1x512 : Shape := ⟨3, ![1, 1, 512]⟩
abbrev S1x512x2048 : Shape := ⟨3, ![1, 512, 2048]⟩
abbrev S512x512 : Shape := ⟨2, ![512, 512]⟩
abbrev S1x512 : Shape := ⟨2, ![1, 512]⟩
abbrev S512x1 : Shape := ⟨2, ![512, 1]⟩
abbrev S512 : Shape := ⟨1, ![512]⟩
abbrev S512x2048 : Shape := ⟨2, ![512, 2048]⟩

abbrev nBuf : Space → Nat
  | .hbm => 18
  | .vmem => 12
  | .smem => 0
  | _ => 0

abbrev bufTy : (tb : Table) → Fin (tcTables nBuf tb) → BufTy
  | .hbm, ⟨0, _⟩ => ⟨S32x512x512, .f32⟩
  | .hbm, ⟨1, _⟩ => ⟨S32x512x512, .f32⟩
  | .hbm, ⟨2, _⟩ => ⟨S32x512, .i1⟩
  | .hbm, ⟨3, _⟩ => ⟨S32x512, .i1⟩
  | .hbm, ⟨4, _⟩ => ⟨S_, .f32⟩
  | .hbm, ⟨5, _⟩ => ⟨S_, .f32⟩
  | .hbm, ⟨6, _⟩ => ⟨S32x512, .f32⟩
  | .hbm, ⟨7, _⟩ => ⟨S32x512, .f32⟩
  | .hbm, ⟨8, _⟩ => ⟨S32x512, .f32⟩
  | .hbm, ⟨9, _⟩ => ⟨S32x512x1, .f32⟩
  | .hbm, ⟨10, _⟩ => ⟨S_, .f32⟩
  | .hbm, ⟨11, _⟩ => ⟨S_, .f32⟩
  | .hbm, ⟨12, _⟩ => ⟨S32x512, .f32⟩
  | .hbm, ⟨13, _⟩ => ⟨S32x512, .f32⟩
  | .hbm, ⟨14, _⟩ => ⟨S32x512, .f32⟩
  | .hbm, ⟨15, _⟩ => ⟨S32x1x512, .f32⟩
  | .hbm, ⟨16, _⟩ => ⟨S32x512x2048, .f32⟩
  | .hbm, ⟨17, _⟩ => ⟨S32x512x2048, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x1, .f32⟩
  | .local _ .vmem, ⟨5, _⟩ => ⟨S1x512x1, .f32⟩
  | .local _ .vmem, ⟨6, _⟩ => ⟨S1x1x512, .f32⟩
  | .local _ .vmem, ⟨7, _⟩ => ⟨S1x1x512, .f32⟩
  | .local _ .vmem, ⟨8, _⟩ => ⟨S1x512x2048, .f32⟩
  | .local _ .vmem, ⟨9, _⟩ => ⟨S1x512x2048, .f32⟩
  | .local _ .vmem, ⟨10, _⟩ => ⟨S1x512x2048, .f32⟩
  | .local _ .vmem, ⟨11, _⟩ => ⟨S1x512x2048, .f32⟩
  | _, _ => ⟨S32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_v0 : Ref sig .tc := ⟨.hbm, 8, rfl⟩
abbrev main_v1 : Ref sig .tc := ⟨.hbm, 9, rfl⟩
abbrev main_cst_1 : Ref sig .tc := ⟨.hbm, 10, rfl⟩
abbrev main_cst_2 : Ref sig .tc := ⟨.hbm, 11, rfl⟩
abbrev main_call1_v0 : Ref sig .tc := ⟨.hbm, 12, rfl⟩
abbrev main_call1_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S32x512 : S_.BroadcastsInDim S32x512 (![] : Fin 0 → Fin S32x512.rank)
  bcast_S32x512_S32x512x1_0_1 : S32x512.BroadcastsInDim S32x512x1 (![0, 1] : Fin 2 → Fin S32x512x1.rank)
  bcast_S32x512_S32x1x512_0_2 : S32x512.BroadcastsInDim S32x1x512 (![0, 2] : Fin 2 → Fin S32x1x512.rank)
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  broadcasts_S1x512_S512x512 : S1x512.Broadcasts S512x512
  reduces_S512x512_S512 : S512x512.Reduces [1] S512
  shapeCasts_S512_S512x1 : S512.ShapeCasts S512x1
  broadcasts_S512x1_S512x512 : S512x1.Broadcasts S512x512
  reduces_S512x512_S512_2 : S512x512.Reduces [0] S512
  shapeCasts_S512_S1x512 : S512.ShapeCasts S1x512
  concatenates_S512x512_S512x512_S512x512_S512x512_S512x2048_d1 : Shape.Concatenates [S512x512, S512x512, S512x512, S512x512] S512x2048 1
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  dot_S512x512_S512x512_S512x512_1_1_0_0_n_n_wf : DotDims.WF S512x512 S512x512 S512x512 [1] [1] [0] [0] [] []
  dot_S512x512_S512x512_S512x512_1_0_0_1_n_n_wf : DotDims.WF S512x512 S512x512 S512x512 [1] [0] [0] [1] [] []
  dot_S512x512_S512x512_S512x512_0_0_1_1_n_n_wf : DotDims.WF S512x512 S512x512 S512x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S32x512x512.size a
  hwx0_0 : ∀ i : grid0.Coords, EltTy.bits .f32 = 32 ∨ (Rect.block (s := S32x512x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S32x512x512.size a
  hwx0_1 : ∀ i : grid0.Coords, EltTy.bits .f32 = 32 ∨ (Rect.block (s := S32x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S32x512x1.size a
  hwx0_2 : ∀ i : grid0.Coords, EltTy.bits .f32 = 32 ∨ (Rect.block (s := S32x512x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S32x1x512.size a
  hwx0_3 : ∀ i : grid0.Coords, EltTy.bits .f32 = 32 ∨ (Rect.block (s := S32x1x512) S1x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S32x512x2048.size a
  hwx0_4 : ∀ i : grid0.Coords, EltTy.bits .f32 = 32 ∨ (Rect.block (s := S32x512x2048) S1x512x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S32x512x2048.size a
  hwx0_5 : ∀ i : grid0.Coords, EltTy.bits .f32 = 32 ∨ (Rect.block (s := S32x512x2048) S1x512x2048.size (cc0_transform_5 i) (hinb0_5 i)).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x512_S512x512_0_0_1_1_n_n : DotDims S512x512 S512x512 S512x512 where
  lhsContracting := [0]
  rhsContracting := [0]
  lhsNonContracting := [1]
  rhsNonContracting := [1]
  lhsBatch := []
  rhsBatch := []
  wf := dot_S512x512_S512x512_S512x512_0_0_1_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x512x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x512x512 : Shape := ⟨3, ![32, 512, 512]⟩
abbrev S32x512 : Shape := ⟨2, ![32, 512]⟩
abbrev S_ : Shape := ⟨0, ![]⟩
abbrev S32x1x512 : Shape := ⟨3, ![32, 1, 512]⟩
abbrev S32x512x1 : Shape := ⟨3, ![32, 512, 1]⟩
abbrev S32x512x2048 : Shape := ⟨3, ![32, 512, 2048]⟩

abbrev nBuf : Space → Nat
  | .hbm => 59
  | .vmem => 0
  | .smem => 0
  | _ => 0

abbrev bufTy : (tb : Table) → Fin (tcTables nBuf tb) → BufTy
  | .hbm, ⟨0, _⟩ => ⟨S32x512x512, .f32⟩
  | .hbm, ⟨1, _⟩ => ⟨S32x512x512, .f32⟩
  | .hbm, ⟨2, _⟩ => ⟨S32x512, .i1⟩
  | .hbm, ⟨3, _⟩ => ⟨S32x512, .i1⟩
  | .hbm, ⟨4, _⟩ => ⟨S32x512x512, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S32x512, .f32⟩
  | .hbm, ⟨9, _⟩ => ⟨S32x512, .f32⟩
  | .hbm, ⟨10, _⟩ => ⟨S32x512, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S32x512, .f32⟩
  | .hbm, ⟨15, _⟩ => ⟨S32x512, .f32⟩
  | .hbm, ⟨16, _⟩ => ⟨S32x512, .f32⟩
  | .hbm, ⟨17, _⟩ => ⟨S32x1x512, .f32⟩
  | .hbm, ⟨18, _⟩ => ⟨S32x512x512, .f32⟩
  | .hbm, ⟨19, _⟩ => ⟨S32x512x512, .f32⟩
  | .hbm, ⟨20, _⟩ => ⟨S_, .f32⟩
  | .hbm, ⟨21, _⟩ => ⟨S32x512, .f32⟩
  | .hbm, ⟨22, _⟩ => ⟨S_, .f32⟩
  | .hbm, ⟨23, _⟩ => ⟨S32x512, .f32⟩
  | .hbm, ⟨24, _⟩ => ⟨S32x512, .f32⟩
  | .hbm, ⟨25, _⟩ => ⟨S32x512x1, .f32⟩
  | .hbm, ⟨26, _⟩ => ⟨S32x512x512, .f32⟩
  | .hbm, ⟨27, _⟩ => ⟨S32x512x512, .f32⟩
  | .hbm, ⟨28, _⟩ => ⟨S32x512x512, .f32⟩
  | .hbm, ⟨29, _⟩ => ⟨S_, .f32⟩
  | .hbm, ⟨30, _⟩ => ⟨S32x512, .f32⟩
  | .hbm, ⟨31, _⟩ => ⟨S32x512x1, .f32⟩
  | .hbm, ⟨32, _⟩ => ⟨S32x512x512, .f32⟩
  | .hbm, ⟨33, _⟩ => ⟨S32x512x512, .f32⟩
  | .hbm, ⟨34, _⟩ => ⟨S32x512x512, .f32⟩
  | .hbm, ⟨35, _⟩ => ⟨S32x512x1, .f32⟩
  | .hbm, ⟨36, _⟩ => ⟨S32x512x512, .f32⟩
  | .hbm, ⟨37, _⟩ => ⟨S32x512x512, .f32⟩
  | .hbm, ⟨38, _⟩ => ⟨S_, .f32⟩
  | .hbm, ⟨39, _⟩ => ⟨S32x512, .f32⟩
  | .hbm, ⟨40, _⟩ => ⟨S_, .f32⟩
  | .hbm, ⟨41, _⟩ => ⟨S32x512, .f32⟩
  | .hbm, ⟨42, _⟩ => ⟨S32x512, .f32⟩
  | .hbm, ⟨43, _⟩ => ⟨S32x1x512, .f32⟩
  | .hbm, ⟨44, _⟩ => ⟨S32x512x512, .f32⟩
  | .hbm, ⟨45, _⟩ => ⟨S32x512x512, .f32⟩
  | .hbm, ⟨46, _⟩ => ⟨S32x512x512, .f32⟩
  | .hbm, ⟨47, _⟩ => ⟨S_, .f32⟩
  | .hbm, ⟨48, _⟩ => ⟨S32x512, .f32⟩
  | .hbm, ⟨49, _⟩ => ⟨S32x1x512, .f32⟩
  | .hbm, ⟨50, _⟩ => ⟨S32x512x512, .f32⟩
  | .hbm, ⟨51, _⟩ => ⟨S32x512x512, .f32⟩
  | .hbm, ⟨52, _⟩ => ⟨S32x512x512, .f32⟩
  | .hbm, ⟨53, _⟩ => ⟨S32x512x512, .f32⟩
  | .hbm, ⟨54, _⟩ => ⟨S32x512x512, .f32⟩
  | .hbm, ⟨55, _⟩ => ⟨S32x512x2048, .f32⟩
  | .hbm, ⟨56, _⟩ => ⟨S32x512x512, .f32⟩
  | .hbm, ⟨57, _⟩ => ⟨S32x512x512, .f32⟩
  | .hbm, ⟨58, _⟩ => ⟨S32x512x2048, .f32⟩
  | _, _ => ⟨S32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_v1 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_3 : Ref sig .tc := ⟨.hbm, 20, rfl⟩
abbrev main_v6 : Ref sig .tc := ⟨.hbm, 21, rfl⟩
abbrev main_cst_4 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_5 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_6 : Ref sig .tc := ⟨.hbm, 38, rfl⟩
abbrev main_v21 : Ref sig .tc := ⟨.hbm, 39, rfl⟩
abbrev main_cst_7 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_8 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]

class Facts₀ : Prop where
  bcast_S_S32x512 : S_.BroadcastsInDim S32x512 (![] : Fin 0 → Fin S32x512.rank)
  bcast_S32x512_S32x1x512_0_2 : S32x512.BroadcastsInDim S32x1x512 (![0, 2] : Fin 2 → Fin S32x1x512.rank)
  bcast_S32x1x512_S32x512x512_0_1_2 : S32x1x512.BroadcastsInDim S32x512x512 (![0, 1, 2] : Fin 3 → Fin S32x512x512.rank)
  reducesTo_S32x512x512_S32x512_d2 : S32x512x512.ReducesTo [2] S32x512
  h_S_ : 0 < S_.numel
  bcast_S32x512_S32x512x1_0_1 : S32x512.BroadcastsInDim S32x512x1 (![0, 1] : Fin 2 → Fin S32x512x1.rank)
  bcast_S32x512x1_S32x512x512_0_1_2 : S32x512x1.BroadcastsInDim S32x512x512 (![0, 1, 2] : Fin 3 → Fin S32x512x512.rank)
  reducesTo_S32x512x512_S32x512_d1 : S32x512x512.ReducesTo [1] S32x512
  concatenates_S32x512x512_S32x512x512_S32x512x512_S32x512x512_S32x512x2048_d2 : Shape.Concatenates [S32x512x512, S32x512x512, S32x512x512, S32x512x512] S32x512x2048 2
  dot_S32x512x512_S32x512x512_S32x512x512_2_2_1_1_0_0_wf : DotDims.WF S32x512x512 S32x512x512 S32x512x512 [2] [2] [1] [1] [0] [0]
  dot_S32x512x512_S32x512x512_S32x512x512_2_1_1_2_0_0_wf : DotDims.WF S32x512x512 S32x512x512 S32x512x512 [2] [1] [1] [2] [0] [0]
  dot_S32x512x512_S32x512x512_S32x512x512_1_1_2_2_0_0_wf : DotDims.WF S32x512x512 S32x512x512 S32x512x512 [1] [1] [2] [2] [0] [0]

variable [Facts₀]

def dot_S32x512x512_S32x512x512_S32x512x512_2_2_1_1_0_0 : DotDims S32x512x512 S32x512x512 S32x512x512 where
  lhsContracting := [2]
  rhsContracting := [2]
  lhsNonContracting := [1]
  rhsNonContracting := [1]
  lhsBatch := [0]
  rhsBatch := [0]
  wf := dot_S32x512x512_S32x512x512_S32x512x512_2_2_1_1_0_0_wf
def dot_S32x512x512_S32x512x512_S32x512x512_2_1_1_2_0_0 : DotDims S32x512x512 S32x512x512 S32x512x512 where
  lhsContracting := [2]
  rhsContracting := [1]
  lhsNonContracting := [1]
  rhsNonContracting := [2]
  lhsBatch := [0]
  rhsBatch := [0]
  wf := dot_S32x512x512_S32x512x512_S32x512x512_2_1_1_2_0_0_wf
def dot_S32x512x512_S32x512x512_S32x512x512_1_1_2_2_0_0 : DotDims S32x512x512 S32x512x512 S32x512x512 where
  lhsContracting := [1]
  rhsContracting := [1]
  lhsNonContracting := [2]
  rhsNonContracting := [2]
  lhsBatch := [0]
  rhsBatch := [0]
  wf := dot_S32x512x512_S32x512x512_S32x512x512_1_1_2_2_0_0_wf

class Facts : Prop extends Facts₀ where

variable [Facts]
-- ==== Proof.Spec.lean ====
/-
  The function both programs compute, for ONE batch element, over the extended reals.

  A batch element is a pair of 512 x 512 matrices `P` (rows p, features d) and `H` (rows h, features d)
  with an additive mask per row of each (`bias`: minus infinity where the mask bit is set, zero elsewhere).
  The score matrix is `score p h = sum_d P p d * H h d`.  Two softmaxes are taken of it:
    * along h, after adding H's mask to every row: the weights `rowWeight p h`, and with them the
      H-rows averaged for each p, `attendP p d = sum_h rowWeight p h * H h d`;
    * along p, after adding P's mask to every column: the weights `colWeight p h`, and with them the
      P-rows averaged for each h, `attendH h d = sum_p colWeight p h * P p d`.
  A softmax is spelt as both programs spell it: the maximum (a fold of `max` from minus infinity, then once more
  `max` with minus infinity), the exponential of the difference, the sum, the quotient.  Nothing is simplified:
  the literals stay the words the programs print, so a row that is masked whole has the value both programs give it.
  Each result row joins four pieces of 512 columns: the matrix itself, the averaged rows, their difference and
  their product (`join4`, `outP`, `outH`).
-/
import Idealize.ShloMosaic.PureOps.Ideal

noncomputable section

namespace Cert.Attend

open Idealize.ShloMosaic

/-- The additive mask of one position: the word of minus infinity where the bit is set, the zero word elsewhere. -/
def bias (w : BitVec 1) : EReal :=
  Scalar.select w (Ideal.ofBits .f32 0xFF800000#32) (Ideal.ofBits .f32 0x00000000#32)

variable (P H : Fin 512 → Fin 512 → EReal)

/-- The score of row p of `P` against row h of `H`: their inner product over the 512 features. -/
def score (p h : Fin 512) : EReal := ∑ d : Fin 512, P p d * H h d

section Rows
variable (bh : Fin 512 → EReal)

/-- The masked score, H's mask added along h. -/
def rowLogit (p h : Fin 512) : EReal := score P H p h + bh h

/-- The maximum of row p of the masked scores, from minus infinity. -/
def rowMax (p : Fin 512) : EReal :=
  max (Ideal.ofBits .f32 0xFF800000#32)
    ((Finset.univ : Finset (Fin 512)).fold max (Ideal.ofBits .f32 0xFF800000#32) (fun h => rowLogit P H bh p h))

def rowExp (p h : Fin 512) : EReal := Ideal.exp (rowLogit P H bh p h - rowMax P H bh p)

def rowSum (p : Fin 512) : EReal := ∑ h : Fin 512, rowExp P H bh p h

/-- The softmax along h. -/
def rowWeight (p h : Fin 512) : EReal := Ideal.div (rowExp P H bh p h) (rowSum P H bh p)

/-- Row p's average of the rows of `H` under its weights. -/
def attendP (p d : Fin 512) : EReal := ∑ h : Fin 512, rowWeight P H bh p h * H h d

end Rows

section Cols
variable (bp : Fin 512 → EReal)

/-- The masked score, P's mask added along p. -/
def colLogit (p h : Fin 512) : EReal := score P H p h + bp p

/-- The maximum of column h of the masked scores, from minus infinity. -/
def colMax (h : Fin 512) : EReal :=
  max (Ideal.ofBits .f32 0xFF800000#32)
    ((Finset.univ : Finset (Fin 512)).fold max (Ideal.ofBits .f32 0xFF800000#32) (fun p => colLogit P H bp p h))

def colExp (p h : Fin 512) : EReal := Ideal.exp (colLogit P H bp p h - colMax P H bp h)

def colSum (h : Fin 512) : EReal := ∑ p : Fin 512, colExp P H bp p h

/-- The softmax along p. -/
def colWeight (p h : Fin 512) : EReal := Ideal.div (colExp P H bp p h) (colSum P H bp h)

/-- Column h's average of the rows of `P` under its weights. -/
def attendH (h d : Fin 512) : EReal := ∑ p : Fin 512, colWeight P H bp p h * P p d

end Cols

/-- The four pieces a result row joins, by piece number: the entry, its average, their difference, their product. -/
def join4 (a v : EReal) (q : Fin 4) : EReal :=
  match q with
  | ⟨0, _⟩ => a
  | ⟨1, _⟩ => v
  | ⟨2, _⟩ => a - v
  | ⟨3, _⟩ => a * v

/-- Column k of a 2048-wide result row lies in piece k / 512, at feature k % 512. -/
def piece (k : Fin 2048) : Fin 4 := ⟨k.val / 512, by have := k.isLt; omega⟩
def feat (k : Fin 2048) : Fin 512 := ⟨k.val % 512, Nat.mod_lt _ (by decide)⟩

/-- The first result, row p, column k. -/
def outP (bh : Fin 512 → EReal) (p : Fin 512) (k : Fin 2048) : EReal :=
  join4 (P p (feat k)) (attendP P H bh p (feat k)) (piece k)

/-- The second result, row h, column k. -/
def outH (bp : Fin 512 → EReal) (h : Fin 512) (k : Fin 2048) : EReal :=
  join4 (H h (feat k)) (attendH P H bp h (feat k)) (piece k)

end Cert.Attend

end
-- ==== Proof.KerP.lean ====
import proofs.«152633_j22548578304859_1_alg».proof.Proof.Gen.KernelIdeal.Value
import proofs.«152633_j22548578304859_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx

namespace RowSide

/-! ### The two products read at an index

The first product contracts the second axis of both operands (rows of the left against rows of the right); the second
contracts the left operand's second axis with the right operand's first (the ordinary matrix product). Each is, at an
output index, the sum over the one contraction coordinate. -/

theorem lhsT_0 (i : S512x512.Idx) (q : dot_S512x512_S512x512_S512x512_1_1_0_0_n_n.contr.Idx) :
    (dot_S512x512_S512x512_S512x512_1_1_0_0_n_n.lhsIdx i q 0).val = (i 0).val := by
  unfold DotDims.lhsIdx
  rw [dif_neg (show ¬(0 : Fin S512x512.rank) ∈ dot_S512x512_S512x512_S512x512_1_1_0_0_n_n.lhsBatch by decide), dif_pos (show (0 : Fin S512x512.rank) ∈ dot_S512x512_S512x512_S512x512_1_1_0_0_n_n.lhsNonContracting by decide)]
  rfl
theorem lhsT_1 (i : S512x512.Idx) (q : dot_S512x512_S512x512_S512x512_1_1_0_0_n_n.contr.Idx) :
    (dot_S512x512_S512x512_S512x512_1_1_0_0_n_n.lhsIdx i q 1).val = (q ⟨0, by decide⟩).val :=
  dot_S512x512_S512x512_S512x512_1_1_0_0_n_n.lhsIdx_val_of_single rfl i q
theorem rhsT_0 (i : S512x512.Idx) (q : dot_S512x512_S512x512_S512x512_1_1_0_0_n_n.contr.Idx) :
    (dot_S512x512_S512x512_S512x512_1_1_0_0_n_n.rhsIdx i q 0).val = (i 1).val := by
  unfold DotDims.rhsIdx
  rw [dif_neg (show ¬(0 : Fin S512x512.rank) ∈ dot_S512x512_S512x512_S512x512_1_1_0_0_n_n.rhsBatch by decide), dif_pos (show (0 : Fin S512x512.rank) ∈ dot_S512x512_S512x512_S512x512_1_1_0_0_n_n.rhsNonContracting by decide)]
  rfl
theorem rhsT_1 (i : S512x512.Idx) (q : dot_S512x512_S512x512_S512x512_1_1_0_0_n_n.contr.Idx) :
    (dot_S512x512_S512x512_S512x512_1_1_0_0_n_n.rhsIdx i q 1).val = (q ⟨0, by decide⟩).val :=
  dot_S512x512_S512x512_S512x512_1_1_0_0_n_n.rhsIdx_val_of_single rfl i q

/-- Rows against rows: at (p, h) the sum over d of the left operand at (p, d) times the right at (h, d). -/
theorem matmulT_apply (A B : FVec Ideal S512x512 .bf16) (p h : Fin 512) :
    matmul dot_S512x512_S512x512_S512x512_1_1_0_0_n_n none A B (constant (F := Ideal) S512x512 .f32 0x00000000#32) (ix2 p h)
      = ∑ d : Fin 512, A (ix2 p d) * B (ix2 h d) := by
  simp only [matmul]
  rw [Ideal.matmul_constant_zero_apply, ← Equiv.sum_comp (ValueIdx.contrEquiv1 dot_S512x512_S512x512_S512x512_1_1_0_0_n_n 512 rfl rfl).symm]
  refine Finset.sum_congr rfl fun k _ => ?_
  have hk := ValueIdx.contrEquiv1_symm_val dot_S512x512_S512x512_S512x512_1_1_0_0_n_n 512 rfl rfl k
  have el : dot_S512x512_S512x512_S512x512_1_1_0_0_n_n.lhsIdx (ix2 p h) ((ValueIdx.contrEquiv1 dot_S512x512_S512x512_S512x512_1_1_0_0_n_n 512 rfl rfl).symm k) = ix2 p k := funext fun a => Fin.ext (by
    match a with
    | ⟨0, _⟩ => exact lhsT_0 _ _
    | ⟨1, _⟩ => exact (lhsT_1 _ _).trans hk)
  have er : dot_S512x512_S512x512_S512x512_1_1_0_0_n_n.rhsIdx (ix2 p h) ((ValueIdx.contrEquiv1 dot_S512x512_S512x512_S512x512_1_1_0_0_n_n 512 rfl rfl).symm k) = ix2 h k := funext fun a => Fin.ext (by
    match a with
    | ⟨0, _⟩ => exact rhsT_0 _ _
    | ⟨1, _⟩ => exact (rhsT_1 _ _).trans hk)
  rw [el, er]

theorem lhsN_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhsN_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhsN_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhsN_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The ordinary product: at (p, d) the sum over h of the left operand at (p, h) times the right at (h, d). -/
theorem matmulN_apply (W B : FVec Ideal S512x512 .bf16) (p d : Fin 512) :
    matmul dot_S512x512_S512x512_S512x512_1_0_0_1_n_n none W B (constant (F := Ideal) S512x512 .f32 0x00000000#32) (ix2 p d)
      = ∑ h : Fin 512, W (ix2 p h) * B (ix2 h d) := by
  simp only [matmul]
  rw [Ideal.matmul_constant_zero_apply, ← Equiv.sum_comp (ValueIdx.contrEquiv1 dot_S512x512_S512x512_S512x512_1_0_0_1_n_n 512 rfl rfl).symm]
  refine Finset.sum_congr rfl fun k _ => ?_
  have hk := ValueIdx.contrEquiv1_symm_val dot_S512x512_S512x512_S512x512_1_0_0_1_n_n 512 rfl rfl k
  have el : dot_S512x512_S512x512_S512x512_1_0_0_1_n_n.lhsIdx (ix2 p d) ((ValueIdx.contrEquiv1 dot_S512x512_S512x512_S512x512_1_0_0_1_n_n 512 rfl rfl).symm k) = ix2 p k := funext fun a => Fin.ext (by
    match a with
    | ⟨0, _⟩ => exact lhsN_0 _ _
    | ⟨1, _⟩ => exact (lhsN_1 _ _).trans hk)
  have er : dot_S512x512_S512x512_S512x512_1_0_0_1_n_n.rhsIdx (ix2 p d) ((ValueIdx.contrEquiv1 dot_S512x512_S512x512_S512x512_1_0_0_1_n_n 512 rfl rfl).symm k) = ix2 k d := funext fun a => Fin.ext (by
    match a with
    | ⟨0, _⟩ => exact (rhsN_0 _ _).trans hk
    | ⟨1, _⟩ => exact rhsN_1 _ _)
  rw [el, er]

/-! ### A vector over the rows laid out as a column, and the column laid along the columns -/

/-- A vector `[a]` cast to a column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### The reductions along a row -/

/-- The maximum along the second axis, at row `p`: the fold of `max` from the accumulator's word over the row. -/
theorem maxRow_apply (L : FVec Ideal S512x512 .f32) (p : Fin 512) :
    multiReduction (F := Ideal) .maximumf [1] S512 L 0xFF800000#32 reduces_S512x512_S512 (.inl rfl) rfl (ix1 p)
      = (Finset.univ : Finset (Fin 512)).fold max (Ideal.ofBits .f32 0xFF800000#32) (fun h => L (ix2 p h)) := by
  refine (Ideal.multiReduction_maximumf_single L _ reduces_S512x512_S512 (.inl rfl) rfl (ix1 p)).trans ?_
  have e : (L ∘ reduces_S512x512_S512.lift (ix1 p)) = fun h : Fin 512 => L (ix2 p h) :=
    funext fun h => congrArg L (funext fun a => Fin.ext (by match a with | ⟨0, _⟩ => rfl | ⟨1, _⟩ => rfl))
  rw [e]
  rfl

/-- The sum along the second axis, at row `p`. -/
theorem sumRow_apply (E : FVec Ideal S512x512 .f32) (p : Fin 512) :
    multiReduction (F := Ideal) .add [1] S512 E 0x00000000#32 reduces_S512x512_S512 (.inl rfl) rfl (ix1 p)
      = ∑ h : Fin 512, E (ix2 p h) := by
  refine (Ideal.multiReduction_add_single E _ reduces_S512x512_S512 (.inl rfl) rfl (ix1 p)).trans ?_
  exact Finset.sum_congr rfl fun h _ => congrArg E (funext fun a => Fin.ext (by match a with | ⟨0, _⟩ => rfl | ⟨1, _⟩ => rfl))

/-! ### The softmax along a row, as the body spells it, over a variable matrix of logits -/

/-- The row maximum: the fold from minus infinity, then once more `max` with minus infinity. -/
def rowMaxV (L : FVec Ideal S512x512 .f32) : FVec Ideal S512 .f32 :=
  maximumf (broadcast S512 (Scalar.ofBits (F := Ideal) .f32 0xFF800000#32))
    (multiReduction (F := Ideal) .maximumf [1] S512 L 0xFF800000#32 reduces_S512x512_S512 (.inl rfl) rfl)

/-- A vector over the rows, repeated along every column. -/
def alongCols (v : FVec Ideal S512 .f32) : FVec Ideal S512x512 .f32 :=
  broadcastTo S512x512 (shapeCast S512x1 v shapeCasts_S512_S512x1) broadcasts_S512x1_S512x512

/-- The exponential of the logits less their row maximum. -/
def expV (L : FVec Ideal S512x512 .f32) : FVec Ideal S512x512 .f32 := exp (subf L (alongCols (rowMaxV L)))

/-- The row sums. -/
def sumV (E : FVec Ideal S512x512 .f32) : FVec Ideal S512 .f32 :=
  multiReduction (F := Ideal) .add [1] S512 E 0x00000000#32 reduces_S512x512_S512 (.inl rfl) rfl

/-- The softmax weights. -/
def softmaxV (L : FVec Ideal S512x512 .f32) : FVec Ideal S512x512 .f32 := divf (expV L) (alongCols (sumV (expV L)))

theorem alongCols_apply (v : FVec Ideal S512 .f32) (p h : Fin 512) : alongCols v (ix2 p h) = v (ix1 p) := by
  unfold alongCols
  refine (broadcastTo_a1_ab_apply _ broadcasts_S512x1_S512x512 p h).trans ?_
  exact shapeCast_a_a1_apply v shapeCasts_S512_S512x1 p (0 : Fin 1)

theorem rowMaxV_apply (L : FVec Ideal S512x512 .f32) (p : Fin 512) :
    rowMaxV L (ix1 p) = max (Ideal.ofBits .f32 0xFF800000#32)
      ((Finset.univ : Finset (Fin 512)).fold max (Ideal.ofBits .f32 0xFF800000#32) (fun h => L (ix2 p h))) := by
  unfold rowMaxV
  rw [maximumf_apply, broadcast_apply, maxRow_apply]
  rfl

theorem expV_apply (L : FVec Ideal S512x512 .f32) (p h : Fin 512) :
    expV L (ix2 p h) = Ideal.exp (L (ix2 p h) - rowMaxV L (ix1 p)) := by
  show Ideal.exp (subf L (alongCols (rowMaxV L)) (ix2 p h)) = _
  rw [subf_apply, alongCols_apply]

theorem sumV_apply (E : FVec Ideal S512x512 .f32) (p : Fin 512) : sumV E (ix1 p) = ∑ h : Fin 512, E (ix2 p h) :=
  sumRow_apply E p

theorem softmaxV_apply (L : FVec Ideal S512x512 .f32) (p h : Fin 512) :
    softmaxV L (ix2 p h) = Ideal.div (expV L (ix2 p h)) (∑ h' : Fin 512, expV L (ix2 p h')) := by
  unfold softmaxV
  rw [divf_apply, alongCols_apply, sumV_apply]

/-! ### The body's payloads at an index -/

/-- The masked scores as the body computes them: the product of rows against rows plus H's mask along each row. -/
def logitsV (X0 X1 : Vec Ideal S1x512x512 .f32) (X3 : Vec Ideal S1x1x512 .f32) : FVec Ideal S512x512 .f32 :=
  addf (k0_pay7 X0 X1) (broadcastTo S512x512 (shapeCast S1x512 X3 shapeCasts_S1x1x512_S1x512) broadcasts_S1x512_S512x512)

/-- The averaged rows: the softmax of the masked scores times the block of `H`. -/
theorem pay9_eq (X0 X1 : Vec Ideal S1x512x512 .f32) (X3 : Vec Ideal S1x1x512 .f32) :
    k0_pay9 X0 X1 X3 = matmul dot_S512x512_S512x512_S512x512_1_0_0_1_n_n none (truncf .bf16 (softmaxV (logitsV X0 X1 X3)) bitsLt_bf16_f32) (k0_pay6 X1)
      (constant (F := Ideal) S512x512 .f32 0x00000000#32) := rfl

theorem pay5_apply (X : Vec Ideal S1x512x512 .f32) (p d : Fin 512) : k0_pay5 X (ix2 p d) = X (ix3 (0 : Fin 1) p d) := by
  unfold k0_pay5 k0_pay3
  exact shapeCast_1ab_ab_apply X shapeCasts_S1x512x512_S512x512 p d

theorem pay6_apply (X : Vec Ideal S1x512x512 .f32) (h d : Fin 512) : k0_pay6 X (ix2 h d) = X (ix3 (0 : Fin 1) h d) := by
  unfold k0_pay6 k0_pay4
  exact shapeCast_1ab_ab_apply X shapeCasts_S1x512x512_S512x512 h d

theorem pay7_apply (X0 X1 : Vec Ideal S1x512x512 .f32) (p h : Fin 512) :
    k0_pay7 X0 X1 (ix2 p h) = Cert.Attend.score (fun p d => X0 (ix3 (0 : Fin 1) p d)) (fun h d => X1 (ix3 (0 : Fin 1) h d)) p h := by
  unfold k0_pay7 Cert.Attend.score
  refine (matmulT_apply _ _ p h).trans ?_
  exact Finset.sum_congr rfl fun d _ => by rw [pay5_apply, pay6_apply]

theorem logitsV_apply (X0 X1 : Vec Ideal S1x512x512 .f32) (X3 : Vec Ideal S1x1x512 .f32) (p h : Fin 512) :
    logitsV X0 X1 X3 (ix2 p h) = Cert.Attend.rowLogit (fun p d => X0 (ix3 (0 : Fin 1) p d)) (fun h d => X1 (ix3 (0 : Fin 1) h d))
      (fun h => X3 (ix3 (0 : Fin 1) (0 : Fin 1) h)) p h := by
  unfold logitsV Cert.Attend.rowLogit
  rw [addf_apply, pay7_apply]
  refine congrArg (_ + ·) ?_
  refine (broadcastTo_1b_ab_apply _ broadcasts_S1x512_S512x512 p h).trans ?_
  exact shapeCast_1ab_ab_apply X3 shapeCasts_S1x1x512_S1x512 (0 : Fin 1) h

/-! ### The body's softmax is the spec's, and the averaged rows are `attendP` -/

section Spec
variable (X0 X1 : Vec Ideal S1x512x512 .f32) (X3 : Vec Ideal S1x1x512 .f32)

theorem rowMax_eq (p : Fin 512) :
    rowMaxV (logitsV X0 X1 X3) (ix1 p)
      = Cert.Attend.rowMax (fun p d => X0 (ix3 (0 : Fin 1) p d)) (fun h d => X1 (ix3 (0 : Fin 1) h d))
          (fun h => X3 (ix3 (0 : Fin 1) (0 : Fin 1) h)) p := by
  rw [rowMaxV_apply]
  unfold Cert.Attend.rowMax
  rw [show (fun h : Fin 512 => logitsV X0 X1 X3 (ix2 p h))
        = fun h => Cert.Attend.rowLogit (fun p d => X0 (ix3 (0 : Fin 1) p d)) (fun h d => X1 (ix3 (0 : Fin 1) h d))
            (fun h => X3 (ix3 (0 : Fin 1) (0 : Fin 1) h)) p h from funext fun h => logitsV_apply X0 X1 X3 p h]

theorem rowExp_eq (p h : Fin 512) :
    expV (logitsV X0 X1 X3) (ix2 p h)
      = Cert.Attend.rowExp (fun p d => X0 (ix3 (0 : Fin 1) p d)) (fun h d => X1 (ix3 (0 : Fin 1) h d))
          (fun h => X3 (ix3 (0 : Fin 1) (0 : Fin 1) h)) p h := by
  rw [expV_apply, logitsV_apply, rowMax_eq]
  rfl

theorem rowWeight_eq (p h : Fin 512) :
    softmaxV (logitsV X0 X1 X3) (ix2 p h)
      = Cert.Attend.rowWeight (fun p d => X0 (ix3 (0 : Fin 1) p d)) (fun h d => X1 (ix3 (0 : Fin 1) h d))
          (fun h => X3 (ix3 (0 : Fin 1) (0 : Fin 1) h)) p h := by
  rw [softmaxV_apply, rowExp_eq]
  unfold Cert.Attend.rowWeight Cert.Attend.rowSum
  exact congrArg (Ideal.div _) (Finset.sum_congr rfl fun h' _ => rowExp_eq X0 X1 X3 p h')

/-- The averaged rows at (p, d). -/
theorem pay9_apply (p d : Fin 512) :
    k0_pay9 X0 X1 X3 (ix2 p d)
      = Cert.Attend.attendP (fun p d => X0 (ix3 (0 : Fin 1) p d)) (fun h d => X1 (ix3 (0 : Fin 1) h d))
          (fun h => X3 (ix3 (0 : Fin 1) (0 : Fin 1) h)) p d := by
  refine (congrFun (pay9_eq X0 X1 X3) (ix2 p d)).trans ?_
  refine (matmulN_apply _ _ p d).trans ?_
  unfold Cert.Attend.attendP
  exact Finset.sum_congr rfl fun h _ => by rw [truncf_apply, rowWeight_eq, pay6_apply]

end Spec

end RowSide

/-- What the body leaves in the first output's block, at row p and column k: the first result of the pair
    (the block of `P`, the block of `H`, the row of H's additive mask). -/
theorem out4_apply (X0 X1 : Vec Ideal S1x512x512 .f32) (X2 : Vec Ideal S1x512x1 .f32) (X3 : Vec Ideal S1x1x512 .f32)
    (p : Fin 512) (k : Fin 2048) :
    out0_4 X0 X1 X2 X3 (ix3 (0 : Fin 1) p k)
      = Cert.Attend.outP (fun p d => X0 (ix3 (0 : Fin 1) p d)) (fun h d => X1 (ix3 (0 : Fin 1) h d))
          (fun h => X3 (ix3 (0 : Fin 1) (0 : Fin 1) h)) p k := by
  unfold out0_4
  rw [Cert.KernelIdeal.Value.canon4_eq]
  have hz : (![0, 0, 0] : Fin 3 → ℕ) = fun _ => 0 := by funext a; match a with | ⟨0, _⟩ => rfl | ⟨1, _⟩ => rfl | ⟨2, _⟩ => rfl
  simp only [View.ld_unit_zero (S := S1x512x512) hz, View.ld_unit_zero (S := S1x1x512) hz]
  have hix : Value.ix4_0 (ix3 (0 : Fin 1) p k) = ix2 p (Cert.Attend.feat k) := by
    funext a; match a with | ⟨0, _⟩ => rfl | ⟨1, _⟩ => rfl
  show (Value.Cat4_0 X0 X1 X3 (Cert.Attend.piece k)) (Value.ix4_0 (ix3 (0 : Fin 1) p k)) = _
  rw [hix]
  unfold Cert.Attend.outP
  have hC := shapeCast_1ab_ab_apply X0 shapeCasts_S1x512x512_S512x512 p (Cert.Attend.feat k)
  have hA := RowSide.pay9_apply X0 X1 X3 p (Cert.Attend.feat k)
  generalize Cert.Attend.feat k = d at hC hA ⊢
  generalize Cert.Attend.piece k = q
  match q with
  | ⟨0, _⟩ => exact hC
  | ⟨1, _⟩ => exact hA
  | ⟨2, _⟩ =>
    show subf (shapeCast S512x512 X0 shapeCasts_S1x512x512_S512x512) (k0_pay9 X0 X1 X3) (ix2 p d) = _ - _
    rw [subf_apply, hC, hA]
  | ⟨3, _⟩ =>
    show mulf (shapeCast S512x512 X0 shapeCasts_S1x512x512_S512x512) (k0_pay9 X0 X1 X3) (ix2 p d) = _ * _
    rw [mulf_apply, hC, hA]

end Cert.KernelIdeal.BlockValue

end
-- ==== Proof.KerH.lean ====
import proofs.«152633_j22548578304859_1_alg».proof.Proof.Gen.KernelIdeal.Value
import proofs.«152633_j22548578304859_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx

/-! # The second output's block, piece by piece

The body computes, from the two blocks and the column of the first block's additive mask: the score matrix (each row of
the first block against each row of the second), the mask added down each column's entries, the softmax down each column,
and with those weights the average of the first block's rows for every row of the second block; it then joins, for each
row, the second block's row, its average, their difference and their product. The lemmas of `Cols` read each of these
values at an index and identify it with the specification's. -/

namespace Cols

/-! ## The score product: rows of the first block against rows of the second -/

theorem lhs_score_0 (i : S512x512.Idx) (q : dot_S512x512_S512x512_S512x512_1_1_0_0_n_n.contr.Idx) :
    (dot_S512x512_S512x512_S512x512_1_1_0_0_n_n.lhsIdx i q 0).val = (i 0).val := by
  unfold DotDims.lhsIdx
  rw [dif_neg (show ¬(0 : Fin S512x512.rank) ∈ dot_S512x512_S512x512_S512x512_1_1_0_0_n_n.lhsBatch by decide), dif_pos (show (0 : Fin S512x512.rank) ∈ dot_S512x512_S512x512_S512x512_1_1_0_0_n_n.lhsNonContracting by decide)]
  rfl
theorem lhs_score_1 (i : S512x512.Idx) (q : dot_S512x512_S512x512_S512x512_1_1_0_0_n_n.contr.Idx) :
    (dot_S512x512_S512x512_S512x512_1_1_0_0_n_n.lhsIdx i q 1).val = (q ⟨0, by decide⟩).val :=
  dot_S512x512_S512x512_S512x512_1_1_0_0_n_n.lhsIdx_val_of_single rfl i q
theorem rhs_score_0 (i : S512x512.Idx) (q : dot_S512x512_S512x512_S512x512_1_1_0_0_n_n.contr.Idx) :
    (dot_S512x512_S512x512_S512x512_1_1_0_0_n_n.rhsIdx i q 0).val = (i 1).val := by
  unfold DotDims.rhsIdx
  rw [dif_neg (show ¬(0 : Fin S512x512.rank) ∈ dot_S512x512_S512x512_S512x512_1_1_0_0_n_n.rhsBatch by decide), dif_pos (show (0 : Fin S512x512.rank) ∈ dot_S512x512_S512x512_S512x512_1_1_0_0_n_n.rhsNonContracting by decide)]
  rfl
theorem rhs_score_1 (i : S512x512.Idx) (q : dot_S512x512_S512x512_S512x512_1_1_0_0_n_n.contr.Idx) :
    (dot_S512x512_S512x512_S512x512_1_1_0_0_n_n.rhsIdx i q 1).val = (q ⟨0, by decide⟩).val :=
  dot_S512x512_S512x512_S512x512_1_1_0_0_n_n.rhsIdx_val_of_single rfl i q

/-- The product of two matrices along their second axes, into the zero accumulator, at (p, h): the inner product of
    row p of the first with row h of the second. -/
theorem matmul_rows_apply (A B : FVec Ideal S512x512 .bf16) (p h : Fin 512) :
    matmul dot_S512x512_S512x512_S512x512_1_1_0_0_n_n none A B (constant S512x512 .f32 0x00000000#32) (ix2 p h)
      = ∑ d : Fin 512, A (ix2 p d) * B (ix2 h d) := by
  simp only [matmul]
  rw [Ideal.matmul_constant_zero_apply, ← Equiv.sum_comp (ValueIdx.contrEquiv1 dot_S512x512_S512x512_S512x512_1_1_0_0_n_n 512 rfl rfl).symm]
  refine Finset.sum_congr rfl fun k _ => ?_
  have hk := ValueIdx.contrEquiv1_symm_val dot_S512x512_S512x512_S512x512_1_1_0_0_n_n 512 rfl rfl k
  have el : dot_S512x512_S512x512_S512x512_1_1_0_0_n_n.lhsIdx (ix2 p h) ((ValueIdx.contrEquiv1 dot_S512x512_S512x512_S512x512_1_1_0_0_n_n 512 rfl rfl).symm k) = ix2 p k := funext fun a => Fin.ext (by
    match a with
    | ⟨0, _⟩ => exact lhs_score_0 _ _
    | ⟨1, _⟩ => exact (lhs_score_1 _ _).trans hk)
  have er : dot_S512x512_S512x512_S512x512_1_1_0_0_n_n.rhsIdx (ix2 p h) ((ValueIdx.contrEquiv1 dot_S512x512_S512x512_S512x512_1_1_0_0_n_n 512 rfl rfl).symm k) = ix2 h k := funext fun a => Fin.ext (by
    match a with
    | ⟨0, _⟩ => exact rhs_score_0 _ _
    | ⟨1, _⟩ => exact (rhs_score_1 _ _).trans hk)
  rw [el, er]

/-! ## Layout operations of the body read at an index -/

/-- A column `[a, 1]` broadcast over `b` columns reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The block of the additive mask, a column `[1, 512, 1]`, spread over the 512 columns: at `(p, h)` its entry `p`. -/
theorem maskCol_apply (X2 : Vec Ideal S1x512x1 .f32) (p h : Fin 512) :
    broadcastTo S512x512 (shapeCast S512x1 X2 shapeCasts_S1x512x1_S512x1) broadcasts_S512x1_S512x512 (ix2 p h)
      = X2 (ix3 (0 : Fin 1) p (0 : Fin 1)) :=
  (broadcastTo_a1_ab_apply _ _ p h).trans (shapeCast_1ab_ab_apply X2 _ p (0 : Fin 1))

/-- A vector `[512]` laid as one row and spread over the 512 rows: at `(p, h)` its entry `h`. -/
theorem rowSpread_apply (v : FVec Ideal S512 .f32) (p h : Fin 512) :
    broadcastTo S512x512 (shapeCast S1x512 v shapeCasts_S512_S1x512) broadcasts_S1x512_S512x512 (ix2 p h) = v (ix1 h) :=
  (broadcastTo_1b_ab_apply _ _ p h).trans (shapeCast_a_1a_apply v _ (0 : Fin 1) h)

/-- A block `[1, 512, 512]` viewed as a matrix and narrowed: at `(p, d)` the block's entry `(0, p, d)`. -/
theorem pay5_apply (X : Vec Ideal S1x512x512 .f32) (p d : Fin 512) : k0_pay5 X (ix2 p d) = X (ix3 (0 : Fin 1) p d) :=
  shapeCast_1ab_ab_apply X shapeCasts_S1x512x512_S512x512 p d
theorem pay6_apply (X : Vec Ideal S1x512x512 .f32) (p d : Fin 512) : k0_pay6 X (ix2 p d) = X (ix3 (0 : Fin 1) p d) :=
  shapeCast_1ab_ab_apply X shapeCasts_S1x512x512_S512x512 p d
theorem pay4_apply (X : Vec Ideal S1x512x512 .f32) (p d : Fin 512) : k0_pay4 X (ix2 p d) = X (ix3 (0 : Fin 1) p d) :=
  shapeCast_1ab_ab_apply X shapeCasts_S1x512x512_S512x512 p d

/-- The index a reduction over the rows inserts: column `h` with row `p` put back is `(p, h)`. -/
theorem lift_rows (h p : Fin 512) : reduces_S512x512_S512_2.lift (ix1 h) p = ix2 p h :=
  funext fun a => Fin.ext (by match a with | ⟨0, _⟩ => rfl | ⟨1, _⟩ => rfl)

/-! ## The softmax down the columns, as the body spells it, over any matrix of logits -/

section Softmax
variable (L : FVec Ideal S512x512 .f32)

/-- The column maxima: the fold of `max` down each column from minus infinity, then once more `max` with minus infinity. -/
def colMaxV : FVec Ideal S512 .f32 :=
  maximumf (broadcast S512 (Scalar.ofBits (F := Ideal) .f32 0xFF800000#32))
    (multiReduction (F := Ideal) .maximumf [0] S512 L 0xFF800000#32 reduces_S512x512_S512_2 (.inl rfl) rfl)

/-- The exponentials of the logits less their column's maximum. -/
def colExpV : FVec Ideal S512x512 .f32 :=
  exp (subf L (broadcastTo S512x512 (shapeCast S1x512 (colMaxV L) shapeCasts_S512_S1x512) broadcasts_S1x512_S512x512))

/-- The column sums of the exponentials. -/
def colSumV : FVec Ideal S512 .f32 :=
  multiReduction (F := Ideal) .add [0] S512 (colExpV L) 0x00000000#32 reduces_S512x512_S512_2 (.inl rfl) rfl

/-- The exponentials over their column's sum. -/
def colSoftmaxV : FVec Ideal S512x512 .f32 :=
  divf (colExpV L) (broadcastTo S512x512 (shapeCast S1x512 (colSumV L) shapeCasts_S512_S1x512) broadcasts_S1x512_S512x512)

theorem colMaxV_apply (h : Fin 512) :
    colMaxV L (ix1 h) = max (Ideal.ofBits .f32 0xFF800000#32)
      ((Finset.univ : Finset (Fin 512)).fold max (Ideal.ofBits .f32 0xFF800000#32) (fun p => L (ix2 p h))) := by
  unfold colMaxV
  refine (maximumf_apply _ _ _).trans (congrArg (max (Ideal.ofBits .f32 0xFF800000#32)) ?_)
  refine (Ideal.multiReduction_maximumf_single L _ reduces_S512x512_S512_2 _ _ (ix1 h)).trans ?_
  have e : (L ∘ reduces_S512x512_S512_2.lift (ix1 h)) = fun p : Fin 512 => L (ix2 p h) :=
    funext fun p => congrArg L (lift_rows h p)
  exact congrArg (fun f : Fin 512 → EReal => (Finset.univ : Finset (Fin 512)).fold max (Ideal.ofBits .f32 0xFF800000#32) f) e

theorem colExpV_apply (p h : Fin 512) : colExpV L (ix2 p h) = Ideal.exp (L (ix2 p h) - colMaxV L (ix1 h)) := by
  unfold colExpV
  show Ideal.exp (subf L _ (ix2 p h)) = _
  exact congrArg Ideal.exp ((subf_apply _ _ _).trans (congrArg (L (ix2 p h) - ·) (rowSpread_apply (colMaxV L) p h)))

theorem colSumV_apply (h : Fin 512) : colSumV L (ix1 h) = ∑ p : Fin 512, colExpV L (ix2 p h) := by
  unfold colSumV
  refine (Ideal.multiReduction_add_single (colExpV L) _ reduces_S512x512_S512_2 _ _ (ix1 h)).trans ?_
  exact Finset.sum_congr rfl fun p _ => congrArg (colExpV L) (lift_rows h p)

theorem colSoftmaxV_apply (p h : Fin 512) :
    colSoftmaxV L (ix2 p h) = Ideal.div (colExpV L (ix2 p h)) (colSumV L (ix1 h)) :=
  (divf_apply _ _ _).trans (congrArg (Ideal.div _) (rowSpread_apply (colSumV L) p h))

variable (P H : Fin 512 → Fin 512 → EReal) (bp : Fin 512 → EReal)
  (hL : ∀ p h, L (ix2 p h) = Cert.Attend.colLogit P H bp p h)
include hL

theorem colMaxV_eq (h : Fin 512) : colMaxV L (ix1 h) = Cert.Attend.colMax P H bp h := by
  rw [colMaxV_apply]
  unfold Cert.Attend.colMax
  exact congrArg (max _) (congrArg (fun f : Fin 512 → EReal => (Finset.univ : Finset (Fin 512)).fold max (Ideal.ofBits .f32 0xFF800000#32) f)
    (funext fun p => hL p h))

theorem colExpV_eq (p h : Fin 512) : colExpV L (ix2 p h) = Cert.Attend.colExp P H bp p h := by
  rw [colExpV_apply, hL p h, colMaxV_eq L P H bp hL h]
  rfl

theorem colSumV_eq (h : Fin 512) : colSumV L (ix1 h) = Cert.Attend.colSum P H bp h := by
  rw [colSumV_apply]
  exact Finset.sum_congr rfl fun p _ => colExpV_eq L P H bp hL p h

theorem colSoftmaxV_eq (p h : Fin 512) : colSoftmaxV L (ix2 p h) = Cert.Attend.colWeight P H bp p h := by
  rw [colSoftmaxV_apply, colExpV_eq L P H bp hL p h, colSumV_eq L P H bp hL h]
  rfl

end Softmax

/-! ## The body's weights are the softmax of the masked scores -/

/-- The score product at (p, h) is the specification's score of the two blocks' rows. -/
theorem score_apply (X0 X1 : Vec Ideal S1x512x512 .f32) (p h : Fin 512) :
    k0_pay7 X0 X1 (ix2 p h)
      = Cert.Attend.score (fun p d => X0 (ix3 (0 : Fin 1) p d)) (fun h d => X1 (ix3 (0 : Fin 1) h d)) p h := by
  refine (matmul_rows_apply (k0_pay5 X0) (k0_pay6 X1) p h).trans ?_
  unfold Cert.Attend.score
  refine Finset.sum_congr rfl fun d _ => ?_
  rw [pay5_apply, pay6_apply]

/-- The weights' payload is the column softmax of the scores plus the mask's column. -/
theorem pay8_eq (X0 X1 : Vec Ideal S1x512x512 .f32) (X2 : Vec Ideal S1x512x1 .f32) :
    k0_pay8 X0 X1 X2 = colSoftmaxV (addf (k0_pay7 X0 X1)
      (broadcastTo S512x512 (shapeCast S512x1 X2 shapeCasts_S1x512x1_S512x1) broadcasts_S512x1_S512x512)) := rfl

/-- The weights at (p, h) are the specification's column weights. -/
theorem pay8_apply (X0 X1 : Vec Ideal S1x512x512 .f32) (X2 : Vec Ideal S1x512x1 .f32) (p h : Fin 512) :
    k0_pay8 X0 X1 X2 (ix2 p h)
      = Cert.Attend.colWeight (fun p d => X0 (ix3 (0 : Fin 1) p d)) (fun h d => X1 (ix3 (0 : Fin 1) h d))
          (fun p => X2 (ix3 (0 : Fin 1) p (0 : Fin 1))) p h := by
  rw [pay8_eq]
  refine colSoftmaxV_eq _ _ _ _ (fun p h => ?_) p h
  refine (addf_apply _ _ _).trans ?_
  rw [score_apply, maskCol_apply]
  rfl

/-! ## The weighted average: the weights' columns against the first block's rows -/

theorem lhs_avg_0 (i : S512x512.Idx) (q : dot_S512x512_S512x512_S512x512_0_0_1_1_n_n.contr.Idx) :
    (dot_S512x512_S512x512_S512x512_0_0_1_1_n_n.lhsIdx i q 0).val = (q ⟨0, by decide⟩).val :=
  dot_S512x512_S512x512_S512x512_0_0_1_1_n_n.lhsIdx_val_of_single rfl i q
theorem lhs_avg_1 (i : S512x512.Idx) (q : dot_S512x512_S512x512_S512x512_0_0_1_1_n_n.contr.Idx) :
    (dot_S512x512_S512x512_S512x512_0_0_1_1_n_n.lhsIdx i q 1).val = (i 0).val := by
  unfold DotDims.lhsIdx
  rw [dif_neg (show ¬(1 : Fin S512x512.rank) ∈ dot_S512x512_S512x512_S512x512_0_0_1_1_n_n.lhsBatch by decide), dif_pos (show (1 : Fin S512x512.rank) ∈ dot_S512x512_S512x512_S512x512_0_0_1_1_n_n.lhsNonContracting by decide)]
  rfl
theorem rhs_avg_0 (i : S512x512.Idx) (q : dot_S512x512_S512x512_S512x512_0_0_1_1_n_n.contr.Idx) :
    (dot_S512x512_S512x512_S512x512_0_0_1_1_n_n.rhsIdx i q 0).val = (q ⟨0, by decide⟩).val :=
  dot_S512x512_S512x512_S512x512_0_0_1_1_n_n.rhsIdx_val_of_single rfl i q
theorem rhs_avg_1 (i : S512x512.Idx) (q : dot_S512x512_S512x512_S512x512_0_0_1_1_n_n.contr.Idx) :
    (dot_S512x512_S512x512_S512x512_0_0_1_1_n_n.rhsIdx i q 1).val = (i 1).val := by
  unfold DotDims.rhsIdx
  rw [dif_neg (show ¬(1 : Fin S512x512.rank) ∈ dot_S512x512_S512x512_S512x512_0_0_1_1_n_n.rhsBatch by decide), dif_pos (show (1 : Fin S512x512.rank) ∈ dot_S512x512_S512x512_S512x512_0_0_1_1_n_n.rhsNonContracting by decide)]
  rfl

/-- The product of two matrices along their first axes, into the zero accumulator, at (h, d): the inner product of
    column h of the first with column d of the second. -/
theorem matmul_cols_apply (A B : FVec Ideal S512x512 .bf16) (h d : Fin 512) :
    matmul dot_S512x512_S512x512_S512x512_0_0_1_1_n_n none A B (constant S512x512 .f32 0x00000000#32) (ix2 h d)
      = ∑ p : Fin 512, A (ix2 p h) * B (ix2 p d) := by
  simp only [matmul]
  rw [Ideal.matmul_constant_zero_apply, ← Equiv.sum_comp (ValueIdx.contrEquiv1 dot_S512x512_S512x512_S512x512_0_0_1_1_n_n 512 rfl rfl).symm]
  refine Finset.sum_congr rfl fun k _ => ?_
  have hk := ValueIdx.contrEquiv1_symm_val dot_S512x512_S512x512_S512x512_0_0_1_1_n_n 512 rfl rfl k
  have el : dot_S512x512_S512x512_S512x512_0_0_1_1_n_n.lhsIdx (ix2 h d) ((ValueIdx.contrEquiv1 dot_S512x512_S512x512_S512x512_0_0_1_1_n_n 512 rfl rfl).symm k) = ix2 k h := funext fun a => Fin.ext (by
    match a with
    | ⟨0, _⟩ => exact (lhs_avg_0 _ _).trans hk
    | ⟨1, _⟩ => exact lhs_avg_1 _ _)
  have er : dot_S512x512_S512x512_S512x512_0_0_1_1_n_n.rhsIdx (ix2 h d) ((ValueIdx.contrEquiv1 dot_S512x512_S512x512_S512x512_0_0_1_1_n_n 512 rfl rfl).symm k) = ix2 k d := funext fun a => Fin.ext (by
    match a with
    | ⟨0, _⟩ => exact (rhs_avg_0 _ _).trans hk
    | ⟨1, _⟩ => exact rhs_avg_1 _ _)
  rw [el, er]

/-- The averaged rows as the body computes them: the weights, narrowed, against the first block, narrowed. -/
def avgV (X0 X1 : Vec Ideal S1x512x512 .f32) (X2 : Vec Ideal S1x512x1 .f32) : FVec Ideal S512x512 .f32 :=
  matmul dot_S512x512_S512x512_S512x512_0_0_1_1_n_n none (truncf .bf16 (k0_pay8 X0 X1 X2) bitsLt_bf16_f32) (k0_pay5 X0)
    (constant S512x512 .f32 0x00000000#32)

/-- At (h, d) they are the specification's average of the first block's rows under column h's weights. -/
theorem avgV_apply (X0 X1 : Vec Ideal S1x512x512 .f32) (X2 : Vec Ideal S1x512x1 .f32) (h d : Fin 512) :
    avgV X0 X1 X2 (ix2 h d)
      = Cert.Attend.attendH (fun p d => X0 (ix3 (0 : Fin 1) p d)) (fun h d => X1 (ix3 (0 : Fin 1) h d))
          (fun p => X2 (ix3 (0 : Fin 1) p (0 : Fin 1))) h d := by
  unfold avgV
  refine (matmul_cols_apply _ _ h d).trans ?_
  unfold Cert.Attend.attendH
  refine Finset.sum_congr rfl fun p _ => ?_
  rw [pay5_apply]
  show k0_pay8 X0 X1 X2 (ix2 p h) * X0 (ix3 (0 : Fin 1) p d) = _
  rw [pay8_apply]

/-! ## The block the body leaves -/

theorem zero3 : (![0, 0, 0] : Fin 3 → Nat) = fun _ => 0 :=
  funext fun a => by match a with | ⟨0, _⟩ => rfl | ⟨1, _⟩ => rfl | ⟨2, _⟩ => rfl

/-- The four pieces the body joins along the columns, by piece number: the second block as a matrix, the averaged rows,
    their difference and their product. -/
abbrev pieces (X0 X1 : Vec Ideal S1x512x512 .f32) (X2 : Vec Ideal S1x512x1 .f32) : Fin 4 → Vec Ideal S512x512 .f32 :=
  fun n => match n with
    | ⟨0, _⟩ => k0_pay4 X1
    | ⟨1, _⟩ => avgV X0 X1 X2
    | ⟨2, _⟩ => subf (k0_pay4 X1) (avgV X0 X1 X2)
    | ⟨3, _⟩ => mulf (k0_pay4 X1) (avgV X0 X1 X2)

/-- The stored value at (0, h, k) is piece k / 512 at (h, k % 512). -/
theorem pay2_apply (X0 X1 : Vec Ideal S1x512x512 .f32) (X2 : Vec Ideal S1x512x1 .f32) (h : Fin 512) (k : Fin 2048) :
    k0_pay2 (k0_pay4 X1) (k0_pay5 X0) (k0_pay8 X0 X1 X2) (ix3 (0 : Fin 1) h k)
      = pieces X0 X1 X2 (Cert.Attend.piece k) (ix2 h (Cert.Attend.feat k)) := by
  show shapeCast S1x512x2048 (concatenate S512x2048 1 [⟨S512x512, k0_pay4 X1⟩, ⟨S512x512, avgV X0 X1 X2⟩, ⟨S512x512, subf (k0_pay4 X1) (avgV X0 X1 X2)⟩, ⟨S512x512, mulf (k0_pay4 X1) (avgV X0 X1 X2)⟩] concatenates_S512x512_S512x512_S512x512_S512x512_S512x2048_d1) shapeCasts_S512x2048_S1x512x2048 (ix3 (0 : Fin 1) h k) = _
  refine (shapeCast_ab_1ab_apply _ _ (0 : Fin 1) h k).trans ?_
  show concatenate S512x2048 1 (List.ofFn fun n : Fin 4 => (⟨S512x512, pieces X0 X1 X2 n⟩ : (s : Shape) × (s.Idx → _))) _ (ix2 h k) = _
  exact concatenate_ofFn_apply (t := S512x2048) (s₁ := S512x512) (1 : Fin 2) (pieces X0 X1 X2) _ rfl 512 rfl (ix2 h k)
    (Cert.Attend.piece k) rfl (ix2 h (Cert.Attend.feat k)) rfl (fun b hb => by
      match b with
      | ⟨0, _⟩ => rfl
      | ⟨1, _⟩ => exact absurd rfl hb)

end Cols

/-- What the body leaves in the second output's block, at row h and column k: the second result of the pair
    (the block of `P`, the block of `H`, the column of P's additive mask). -/
theorem out5_apply (X0 X1 : Vec Ideal S1x512x512 .f32) (X2 : Vec Ideal S1x512x1 .f32) (X3 : Vec Ideal S1x1x512 .f32)
    (h : Fin 512) (k : Fin 2048) :
    out0_5 X0 X1 X2 X3 (ix3 (0 : Fin 1) h k)
      = Cert.Attend.outH (fun p d => X0 (ix3 (0 : Fin 1) p d)) (fun h d => X1 (ix3 (0 : Fin 1) h d))
          (fun p => X2 (ix3 (0 : Fin 1) p (0 : Fin 1))) h k := by
  have e : out0_5 X0 X1 X2 X3 = k0_pay2 (k0_pay4 X1) (k0_pay5 X0) (k0_pay8 X0 X1 X2) := by
    unfold out0_5
    rw [View.canon_unit_zero (S := S1x512x2048) Cols.zero3]
    simp only [View.ld_unit_zero (S := S1x512x512) Cols.zero3, View.ld_unit_zero (S := S1x512x1) Cols.zero3]
  rw [e, Cols.pay2_apply]
  unfold Cert.Attend.outH
  generalize Cert.Attend.piece k = q
  generalize Cert.Attend.feat k = d
  match q with
  | ⟨0, _⟩ => exact Cols.pay4_apply X1 h d
  | ⟨1, _⟩ => exact Cols.avgV_apply X0 X1 X2 h d
  | ⟨2, _⟩ => exact (subf_apply _ _ _).trans (by rw [Cols.pay4_apply, Cols.avgV_apply]; rfl)
  | ⟨3, _⟩ => exact (mulf_apply _ _ _).trans (by rw [Cols.pay4_apply, Cols.avgV_apply]; rfl)

end Cert.KernelIdeal.BlockValue

end
-- ==== Proof.Arrays.lean ====
/-
  From blocks to arrays.  The kernel's one launch visits the 32 batch elements; at grid point t every window's block
  is batch element t of its array: the two [512,512] matrices, the [512,1] column of P's additive mask, the [1,512]
  row of H's additive mask, and the two [512,2048] result rows.  The additive masks are made before the launch from
  the boolean masks (a select between the word of minus infinity and the zero word, then a unit axis).  So what point
  t writes back is block t of ONE function of the argument arrays, batch element by batch element the pair
  `Cert.Attend.outP` / `Cert.Attend.outH` of that element; the 32 blocks cover each result array, which therefore
  ends holding that function.
-/
import proofs.«152633_j22548578304859_1_alg».proof.Proof.Gen.KernelIdeal.Value
import proofs.«152633_j22548578304859_1_alg».proof.Proof.KerP
import proofs.«152633_j22548578304859_1_alg».proof.Proof.KerH
import proofs.«152633_j22548578304859_1_alg».proof.Proof.Spec
import Idealize.ShloMosaic.Lib.ValueIdx
import Idealize.ShloMosaic.Lib.Pipeline.Value
import Idealize.ShloMosaic.Lib.StableHlo.Run

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The additive masks as the region finds them -/

/-- H's additive mask: the second mask's select between the two words, with a unit axis put in the middle. -/
theorem V_main_v3 (c : Dev nD) :
    (V m c main_v3 : S32x1x512.Idx → EReal)
      = broadcastInDim S32x1x512 ![0, 2] bcast_S32x512_S32x1x512_0_2
          (select (m ((c : Thread nD τ).loc main_arg3))
            (broadcastInDim S32x512 ![] bcast_S_S32x512 (constant (F := Ideal) S_ .f32 0xFF800000#32))
            (broadcastInDim S32x512 ![] bcast_S_S32x512 (constant (F := Ideal) S_ .f32 0x00000000#32))) := by
  dsimp only [Gen.V]
  simp only [hostOps0, hostOps0_1, hostOps0_2, hostOps0_3, hostOps0_4, List.flatten_cons, List.flatten_nil, List.append_nil,
    List.cons_append, List.nil_append]
  after_results
  rfl

/-- P's additive mask: the first mask's select between the two words, with a unit axis put last. -/
theorem V_main_v1 (c : Dev nD) :
    (V m c main_v1 : S32x512x1.Idx → EReal)
      = broadcastInDim S32x512x1 ![0, 1] bcast_S32x512_S32x512x1_0_1
          (select (m ((c : Thread nD τ).loc main_arg2))
            (broadcastInDim S32x512 ![] bcast_S_S32x512 (constant (F := Ideal) S_ .f32 0xFF800000#32))
            (broadcastInDim S32x512 ![] bcast_S_S32x512 (constant (F := Ideal) S_ .f32 0x00000000#32))) := by
  dsimp only [Gen.V]
  simp only [hostOps0, hostOps0_1, hostOps0_2, hostOps0_3, hostOps0_4, List.flatten_cons, List.flatten_nil, List.append_nil,
    List.cons_append, List.nil_append]
  after_results
  rfl

/-- A select between the two broadcast words, at one position, is the additive form of that position's mask bit. -/
theorem select_words_apply (x : S32x512.Idx → BitVec 1) (b : Fin 32) (q : Fin 512) :
    select x (broadcastInDim S32x512 ![] bcast_S_S32x512 (constant (F := Ideal) S_ .f32 0xFF800000#32))
        (broadcastInDim S32x512 ![] bcast_S_S32x512 (constant (F := Ideal) S_ .f32 0x00000000#32)) (ix2 b q)
      = Cert.Attend.bias (x (ix2 b q)) := by
  show Scalar.select (x (ix2 b q))
      (broadcastInDim S32x512 ![] bcast_S_S32x512 (constant (F := Ideal) S_ .f32 0xFF800000#32) (ix2 b q))
      (broadcastInDim S32x512 ![] bcast_S_S32x512 (constant (F := Ideal) S_ .f32 0x00000000#32) (ix2 b q)) = _
  rw [broadcastInDim_apply _ bcast_S_S32x512 _ (ix2 b q) (fun a => a.elim0) (fun a => a.elim0),
    broadcastInDim_apply _ bcast_S_S32x512 _ (ix2 b q) (fun a => a.elim0) (fun a => a.elim0)]
  rfl

/-- H's additive mask at batch element b, position h. -/
theorem hbias_apply (c : Dev nD) (b : Fin 32) (h : Fin 512) :
    V m c main_v3 (ix3 b (0 : Fin 1) h) = Cert.Attend.bias (m ((c : Thread nD τ).loc main_arg3) (ix2 b h)) := by
  rw [V_main_v3]
  refine (broadcastInDim_apply _ bcast_S32x512_S32x1x512_0_2 _ (ix3 b (0 : Fin 1) h) (ix2 b h) (fun a => match a with
    | ⟨0, _⟩ => by show b.val = if (32 : Nat) = 1 then 0 else b.val; rw [if_neg (by decide)]
    | ⟨1, _⟩ => by show h.val = if (512 : Nat) = 1 then 0 else h.val; rw [if_neg (by decide)])).trans ?_
  exact select_words_apply _ b h

/-- P's additive mask at batch element b, position p. -/
theorem pbias_apply (c : Dev nD) (b : Fin 32) (p : Fin 512) :
    V m c main_v1 (ix3 b p (0 : Fin 1)) = Cert.Attend.bias (m ((c : Thread nD τ).loc main_arg2) (ix2 b p)) := by
  rw [V_main_v1]
  refine (broadcastInDim_apply _ bcast_S32x512_S32x512x1_0_1 _ (ix3 b p (0 : Fin 1)) (ix2 b p) (fun a => match a with
    | ⟨0, _⟩ => by show b.val = if (32 : Nat) = 1 then 0 else b.val; rw [if_neg (by decide)]
    | ⟨1, _⟩ => by show p.val = if (512 : Nat) = 1 then 0 else p.val; rw [if_neg (by decide)])).trans ?_
  exact select_words_apply _ b p

/-! ## Block t of every window is batch element t -/

/-- The grid point as a batch number. -/
abbrev bat (t : Fin cfg0.N) : Fin 32 := ⟨t.val, lt_of_lt_of_eq t.isLt N_0⟩

/-- The printed index maps, decided over the 32 points: every window's block index is (t, 0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0) :=
  (by decide +kernel : ∀ t : Fin grid0.N, _)

/-- Entry (p, d) of the block of `P` at point t is entry (t, p, d) of the first argument. -/
theorem blockP_apply (c : Dev nD) (t : Fin cfg0.N) (p d : Fin 512) :
    iblk m c 0 t (ix3 (0 : Fin 1) p d) = m ((c : Thread nD τ).loc main_arg0) (ix3 (bat t) p d) := by
  show V m c main_arg0 (((cfg0.win 0).blk t).view.emb (ix3 (0 : Fin 1) p d)) = _
  rw [V_main_arg0]
  obtain ⟨⟨e0, e1, e2⟩, -⟩ := idx_facts t
  refine congrArg _ (funext fun a => Fin.ext ?_)
  match a with
  | ⟨0, _⟩ => show win0_0.index t (0 : Fin 3) * 1 + 1 * 0 = t.val; omega
  | ⟨1, _⟩ => show win0_0.index t (1 : Fin 3) * 512 + 1 * p.val = p.val; omega
  | ⟨2, _⟩ => show win0_0.index t (2 : Fin 3) * 512 + 1 * d.val = d.val; omega

/-- Entry (h, d) of the block of `H` at point t is entry (t, h, d) of the second argument. -/
theorem blockH_apply (c : Dev nD) (t : Fin cfg0.N) (h d : Fin 512) :
    iblk m c 1 t (ix3 (0 : Fin 1) h d) = m ((c : Thread nD τ).loc main_arg1) (ix3 (bat t) h d) := by
  show V m c main_arg1 (((cfg0.win 1).blk t).view.emb (ix3 (0 : Fin 1) h d)) = _
  rw [V_main_arg1]
  obtain ⟨-, ⟨e0, e1, e2⟩, -⟩ := idx_facts t
  refine congrArg _ (funext fun a => Fin.ext ?_)
  match a with
  | ⟨0, _⟩ => show win0_1.index t (0 : Fin 3) * 1 + 1 * 0 = t.val; omega
  | ⟨1, _⟩ => show win0_1.index t (1 : Fin 3) * 512 + 1 * h.val = h.val; omega
  | ⟨2, _⟩ => show win0_1.index t (2 : Fin 3) * 512 + 1 * d.val = d.val; omega

/-- Entry p of the block of P's additive mask at point t is the additive form of bit (t, p) of the first mask. -/
theorem blockPbias_apply (c : Dev nD) (t : Fin cfg0.N) (p : Fin 512) :
    iblk m c 2 t (ix3 (0 : Fin 1) p (0 : Fin 1)) = Cert.Attend.bias (m ((c : Thread nD τ).loc main_arg2) (ix2 (bat t) p)) := by
  show V m c main_v1 (((cfg0.win 2).blk t).view.emb (ix3 (0 : Fin 1) p (0 : Fin 1))) = _
  rw [← pbias_apply m c (bat t) p]
  obtain ⟨-, -, ⟨e0, e1, e2⟩, -⟩ := idx_facts t
  refine congrArg _ (funext fun a => Fin.ext ?_)
  match a with
  | ⟨0, _⟩ => show win0_2.index t (0 : Fin 3) * 1 + 1 * 0 = t.val; omega
  | ⟨1, _⟩ => show win0_2.index t (1 : Fin 3) * 512 + 1 * p.val = p.val; omega
  | ⟨2, _⟩ => show win0_2.index t (2 : Fin 3) * 1 + 1 * 0 = 0; omega

/-- Entry h of the block of H's additive mask at point t is the additive form of bit (t, h) of the second mask. -/
theorem blockHbias_apply (c : Dev nD) (t : Fin cfg0.N) (h : Fin 512) :
    iblk m c 3 t (ix3 (0 : Fin 1) (0 : Fin 1) h) = Cert.Attend.bias (m ((c : Thread nD τ).loc main_arg3) (ix2 (bat t) h)) := by
  show V m c main_v3 (((cfg0.win 3).blk t).view.emb (ix3 (0 : Fin 1) (0 : Fin 1) h)) = _
  rw [← hbias_apply m c (bat t) h]
  obtain ⟨-, -, -, ⟨e0, e1, e2⟩, -⟩ := idx_facts t
  refine congrArg _ (funext fun a => Fin.ext ?_)
  match a with
  | ⟨0, _⟩ => show win0_3.index t (0 : Fin 3) * 1 + 1 * 0 = t.val; omega
  | ⟨1, _⟩ => show win0_3.index t (1 : Fin 3) * 1 + 1 * 0 = 0; omega
  | ⟨2, _⟩ => show win0_3.index t (2 : Fin 3) * 512 + 1 * h.val = h.val; omega

/-! ## The two result arrays as functions of the arguments -/

/-- The first result at batch element b, row p, column k. -/
def GPc (c : Dev nD) (b : Fin 32) (p : Fin 512) (k : Fin 2048) : EReal :=
  Cert.Attend.outP (fun p d => m ((c : Thread nD τ).loc main_arg0) (ix3 b p d))
    (fun h d => m ((c : Thread nD τ).loc main_arg1) (ix3 b h d))
    (fun h => Cert.Attend.bias (m ((c : Thread nD τ).loc main_arg3) (ix2 b h))) p k

/-- The second result at batch element b, row h, column k. -/
def GHc (c : Dev nD) (b : Fin 32) (h : Fin 512) (k : Fin 2048) : EReal :=
  Cert.Attend.outH (fun p d => m ((c : Thread nD τ).loc main_arg0) (ix3 b p d))
    (fun h d => m ((c : Thread nD τ).loc main_arg1) (ix3 b h d))
    (fun p => Cert.Attend.bias (m ((c : Thread nD τ).loc main_arg2) (ix2 b p))) h k

/-- The first result array. -/
def GP (c : Dev nD) : S32x512x2048.Idx → EReal := fun i => GPc m c (i 0) (i 1) (i 2)
/-- The second result array. -/
def GH (c : Dev nD) : S32x512x2048.Idx → EReal := fun i => GHc m c (i 0) (i 1) (i 2)

/-- The pair's first result depends on its three arguments entry by entry. -/
theorem outP_congr {P P' H H' : Fin 512 → Fin 512 → EReal} {bh bh' : Fin 512 → EReal}
    (hP : ∀ p d, P p d = P' p d) (hH : ∀ h d, H h d = H' h d) (hb : ∀ h, bh h = bh' h) (p : Fin 512) (k : Fin 2048) :
    Cert.Attend.outP P H bh p k = Cert.Attend.outP P' H' bh' p k := by
  obtain rfl : P = P' := funext fun p => funext fun d => hP p d
  obtain rfl : H = H' := funext fun h => funext fun d => hH h d
  obtain rfl : bh = bh' := funext hb
  rfl

/-- The pair's second result depends on its three arguments entry by entry. -/
theorem outH_congr {P P' H H' : Fin 512 → Fin 512 → EReal} {bp bp' : Fin 512 → EReal}
    (hP : ∀ p d, P p d = P' p d) (hH : ∀ h d, H h d = H' h d) (hb : ∀ p, bp p = bp' p) (h : Fin 512) (k : Fin 2048) :
    Cert.Attend.outH P H bp h k = Cert.Attend.outH P' H' bp' h k := by
  obtain rfl : P = P' := funext fun p => funext fun d => hP p d
  obtain rfl : H = H' := funext fun h => funext fun d => hH h d
  obtain rfl : bp = bp' := funext hb
  rfl

/-- What point t writes back to the first result is block t of `GP`. -/
theorem flushedP_eq (c : Dev nD) (t : Fin cfg0.N) :
    (dats m 0 c).flushed 4 t = ((cfg0.win 4).blk t).view.read (Elt Ideal) (GP m c) := by
  rw [Value.flushed4]
  funext y
  obtain ⟨q, p, k, rfl⟩ : ∃ (q : Fin 1) (p : Fin 512) (k : Fin 2048), y = ix3 q p k := ⟨y 0, y 1, y 2, eq_ix3 y⟩
  obtain rfl : q = 0 := Subsingleton.elim _ _
  show out0_4 (iblk m c 0 t) (iblk m c 1 t) (iblk m c 2 t) (iblk m c 3 t) (ix3 (0 : Fin 1) p k)
    = GP m c (((cfg0.win 4).blk t).view.emb (ix3 (0 : Fin 1) p k))
  have he : ((cfg0.win 4).blk t).view.emb (ix3 (0 : Fin 1) p k) = ix3 (bat t) p k := by
    obtain ⟨-, -, -, -, ⟨e0, e1, e2⟩, -⟩ := idx_facts t
    refine funext fun a => Fin.ext ?_
    match a with
    | ⟨0, _⟩ => show win0_4.index t (0 : Fin 3) * 1 + 1 * 0 = t.val; omega
    | ⟨1, _⟩ => show win0_4.index t (1 : Fin 3) * 512 + 1 * p.val = p.val; omega
    | ⟨2, _⟩ => show win0_4.index t (2 : Fin 3) * 2048 + 1 * k.val = k.val; omega
  rw [he]
  refine (BlockValue.out4_apply (iblk m c 0 t) (iblk m c 1 t) (iblk m c 2 t) (iblk m c 3 t) p k).trans ?_
  show _ = GPc m c (bat t) p k
  exact outP_congr (blockP_apply m c t) (blockH_apply m c t) (blockHbias_apply m c t) p k

/-- What point t writes back to the second result is block t of `GH`. -/
theorem flushedH_eq (c : Dev nD) (t : Fin cfg0.N) :
    (dats m 0 c).flushed 5 t = ((cfg0.win 5).blk t).view.read (Elt Ideal) (GH m c) := by
  rw [Value.flushed5]
  funext y
  obtain ⟨q, h, k, rfl⟩ : ∃ (q : Fin 1) (h : Fin 512) (k : Fin 2048), y = ix3 q h k := ⟨y 0, y 1, y 2, eq_ix3 y⟩
  obtain rfl : q = 0 := Subsingleton.elim _ _
  show out0_5 (iblk m c 0 t) (iblk m c 1 t) (iblk m c 2 t) (iblk m c 3 t) (ix3 (0 : Fin 1) h k)
    = GH m c (((cfg0.win 5).blk t).view.emb (ix3 (0 : Fin 1) h k))
  have he : ((cfg0.win 5).blk t).view.emb (ix3 (0 : Fin 1) h k) = ix3 (bat t) h k := by
    obtain ⟨-, -, -, -, -, e0, e1, e2⟩ := idx_facts t
    refine funext fun a => Fin.ext ?_
    match a with
    | ⟨0, _⟩ => show win0_5.index t (0 : Fin 3) * 1 + 1 * 0 = t.val; omega
    | ⟨1, _⟩ => show win0_5.index t (1 : Fin 3) * 512 + 1 * h.val = h.val; omega
    | ⟨2, _⟩ => show win0_5.index t (2 : Fin 3) * 2048 + 1 * k.val = k.val; omega
  rw [he]
  refine (BlockValue.out5_apply (iblk m c 0 t) (iblk m c 1 t) (iblk m c 2 t) (iblk m c 3 t) h k).trans ?_
  show _ = GHc m c (bat t) h k
  exact outH_congr (blockP_apply m c t) (blockH_apply m c t) (blockPbias_apply m c t) h k

/-! ## The 32 blocks cover each result array -/

/-- An index of the first result lies in point t's block iff each coordinate lies in the block's range. -/
theorem mem_blkP (t : Fin cfg0.N) (i : S32x512x2048.Idx) :
    i ∈ ((cfg0.win 4).blk t).view.set ↔ ∀ a : Fin 3, win0_4.index t a * S1x512x2048.size a ≤ (i a).val
      ∧ (i a).val < win0_4.index t a * S1x512x2048.size a + S1x512x2048.size a := by
  show i ∈ ((View.whole main_v4_0).slice (win0_4.rect t)).set ↔ _
  rw [View.set_slice_whole, Rect.mem_set_unit]
  exact Iff.rfl

/-- The same for the second result. -/
theorem mem_blkH (t : Fin cfg0.N) (i : S32x512x2048.Idx) :
    i ∈ ((cfg0.win 5).blk t).view.set ↔ ∀ a : Fin 3, win0_5.index t a * S1x512x2048.size a ≤ (i a).val
      ∧ (i a).val < win0_5.index t a * S1x512x2048.size a + S1x512x2048.size a := by
  show i ∈ ((View.whole main_v4_1).slice (win0_5.rect t)).set ↔ _
  rw [View.set_slice_whole, Rect.mem_set_unit]
  exact Iff.rfl

/-- Index (b, p, k) of the first result lies in the block of point b. -/
theorem coverP (i : S32x512x2048.Idx) :
    ∃ t : Fin cfg0.N, (cfg0.win 4).flush t = true ∧ i ∈ ((cfg0.win 4).blk t).view.set := by
  have h0 : (i 0).val < 32 := (i 0).isLt
  have h1 : (i 1).val < 512 := (i 1).isLt
  have h2 : (i 2).val < 2048 := (i 2).isLt
  refine ⟨⟨(i 0).val, lt_of_lt_of_eq h0 N_0.symm⟩, flush0_4 _, ?_⟩
  rw [mem_blkP]
  obtain ⟨-, -, -, -, ⟨e0, e1, e2⟩, -⟩ := idx_facts ⟨(i 0).val, lt_of_lt_of_eq h0 N_0.symm⟩
  intro a
  match a with
  | ⟨0, _⟩ =>
    show win0_4.index ⟨(i 0).val, _⟩ (0 : Fin 3) * 1 ≤ (i 0).val ∧ (i 0).val < win0_4.index ⟨(i 0).val, _⟩ (0 : Fin 3) * 1 + 1
    rw [e0]; show (i 0).val * 1 ≤ (i 0).val ∧ (i 0).val < (i 0).val * 1 + 1; omega
  | ⟨1, _⟩ =>
    show win0_4.index ⟨(i 0).val, _⟩ (1 : Fin 3) * 512 ≤ (i 1).val ∧ (i 1).val < win0_4.index ⟨(i 0).val, _⟩ (1 : Fin 3) * 512 + 512
    rw [e1]; omega
  | ⟨2, _⟩ =>
    show win0_4.index ⟨(i 0).val, _⟩ (2 : Fin 3) * 2048 ≤ (i 2).val ∧ (i 2).val < win0_4.index ⟨(i 0).val, _⟩ (2 : Fin 3) * 2048 + 2048
    rw [e2]; omega

/-- Index (b, h, k) of the second result lies in the block of point b. -/
theorem coverH (i : S32x512x2048.Idx) :
    ∃ t : Fin cfg0.N, (cfg0.win 5).flush t = true ∧ i ∈ ((cfg0.win 5).blk t).view.set := by
  have h0 : (i 0).val < 32 := (i 0).isLt
  have h1 : (i 1).val < 512 := (i 1).isLt
  have h2 : (i 2).val < 2048 := (i 2).isLt
  refine ⟨⟨(i 0).val, lt_of_lt_of_eq h0 N_0.symm⟩, flush0_5 _, ?_⟩
  rw [mem_blkH]
  obtain ⟨-, -, -, -, -, e0, e1, e2⟩ := idx_facts ⟨(i 0).val, lt_of_lt_of_eq h0 N_0.symm⟩
  intro a
  match a with
  | ⟨0, _⟩ =>
    show win0_5.index ⟨(i 0).val, _⟩ (0 : Fin 3) * 1 ≤ (i 0).val ∧ (i 0).val < win0_5.index ⟨(i 0).val, _⟩ (0 : Fin 3) * 1 + 1
    rw [e0]; show (i 0).val * 1 ≤ (i 0).val ∧ (i 0).val < (i 0).val * 1 + 1; omega
  | ⟨1, _⟩ =>
    show win0_5.index ⟨(i 0).val, _⟩ (1 : Fin 3) * 512 ≤ (i 1).val ∧ (i 1).val < win0_5.index ⟨(i 0).val, _⟩ (1 : Fin 3) * 512 + 512
    rw [e1]; omega
  | ⟨2, _⟩ =>
    show win0_5.index ⟨(i 0).val, _⟩ (2 : Fin 3) * 2048 ≤ (i 2).val ∧ (i 2).val < win0_5.index ⟨(i 0).val, _⟩ (2 : Fin 3) * 2048 + 2048
    rw [e2]; omega

/-- The first result array after the run. -/
theorem finalP (c : Dev nD) : (dats m 0 c).arrAt 4 cfg0.N = GP m c :=
  (dats m 0 c).arrAt_eq_of_cover 4 (GP m c) (fun t _ => flushedP_eq m c t) coverP

/-- The second result array after the run. -/
theorem finalH (c : Dev nD) : (dats m 0 c).arrAt 5 cfg0.N = GH m c :=
  (dats m 0 c).arrAt_eq_of_cover 5 (GH m c) (fun t _ => flushedH_eq m c t) coverH

/-! ## The run, read -/

/-- Every weakly fair execution of the kernel's program ends with the two results at `GP` and `GH` of the
    arguments, the arguments unchanged. -/
theorem run : θ_run defs (onTc (τ := τ) (main (F := Ideal))) ⟨m, fun _ => 0, ρ⟩ fun r => ∀ c : Dev nD,
      r.2.mem ((c : Thread nD τ).loc main_v4_0) = GP m c
      ∧ r.2.mem ((c : Thread nD τ).loc main_v4_1) = GH m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (finalP m c), (h c).2.1.trans (finalH m c), (h c).2.2⟩)
    (Value.run_blocks m ρ)

end Cert.KernelIdeal.ArrayValue

end
-- ==== Proof.RefP.lean ====
import proofs.«152633_j22548578304859_1_alg».proof.Proof.RefRead
import proofs.«152633_j22548578304859_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-! ## One batch element of the arguments -/

/-- Batch b of the first float argument: the matrix P (rows p, features d). -/
abbrev matP (x0 : (⟨S32x512x512, .f32⟩ : BufTy).Contents (Elt Ideal)) (b : Fin 32) : Fin 512 → Fin 512 → EReal :=
  fun p d => x0 (ix3 b p d)
/-- Batch b of the second float argument: the matrix H (rows h, features d). -/
abbrev matH (x1 : (⟨S32x512x512, .f32⟩ : BufTy).Contents (Elt Ideal)) (b : Fin 32) : Fin 512 → Fin 512 → EReal :=
  fun h d => x1 (ix3 b h d)
/-- Batch b of the second mask in its additive form. -/
abbrev maskH (x3 : (⟨S32x512, .i1⟩ : BufTy).Contents (Elt Ideal)) (b : Fin 32) : Fin 512 → EReal :=
  fun h => Cert.Attend.bias (x3 (ix2 b h))

variable (x0 x1 : (⟨S32x512x512, .f32⟩ : BufTy).Contents (Elt Ideal)) (x3 : (⟨S32x512, .i1⟩ : BufTy).Contents (Elt Ideal))

/-! ## The operand indices at coordinates -/

theorem lidx_v0_ix (b : Fin 32) (p h d : Fin 512) : lidx_main_v0 (ix3 b p h) d = ix3 b p d :=
  funext fun a => Fin.ext (by match a with | ⟨0, _⟩ => rfl | ⟨1, _⟩ => rfl | ⟨2, _⟩ => rfl)
theorem ridx_v0_ix (b : Fin 32) (p h d : Fin 512) : ridx_main_v0 (ix3 b p h) d = ix3 b h d :=
  funext fun a => Fin.ext (by match a with | ⟨0, _⟩ => rfl | ⟨1, _⟩ => rfl | ⟨2, _⟩ => rfl)
theorem idx_v3_v4_ix (b : Fin 32) (p h : Fin 512) : idx_main_v3 (idx_main_v4 (ix3 b p h)) = ix2 b h :=
  funext fun a => Fin.ext (by match a with | ⟨0, _⟩ => rfl | ⟨1, _⟩ => rfl)
theorem idx_v9_v10_ix (b : Fin 32) (p h : Fin 512) : idx_main_v9 (idx_main_v10 (ix3 b p h)) = ix2 b p :=
  funext fun a => Fin.ext (by match a with | ⟨0, _⟩ => rfl | ⟨1, _⟩ => rfl)
theorem idx_v13_ix (b : Fin 32) (p h : Fin 512) : idx_main_v13 (ix2 b p) h = ix3 b p h :=
  funext fun a => Fin.ext (by match a with | ⟨0, _⟩ => rfl | ⟨1, _⟩ => rfl | ⟨2, _⟩ => rfl)
theorem idx_v14_v15_ix (b : Fin 32) (p h : Fin 512) : idx_main_v14 (idx_main_v15 (ix3 b p h)) = ix2 b p :=
  funext fun a => Fin.ext (by match a with | ⟨0, _⟩ => rfl | ⟨1, _⟩ => rfl)
theorem lidx_v17_ix (b : Fin 32) (p d h : Fin 512) : lidx_main_v17 (ix3 b p d) h = ix3 b p h :=
  funext fun a => Fin.ext (by match a with | ⟨0, _⟩ => rfl | ⟨1, _⟩ => rfl | ⟨2, _⟩ => rfl)
theorem ridx_v17_ix (b : Fin 32) (p d h : Fin 512) : ridx_main_v17 (ix3 b p d) h = ix3 b h d :=
  funext fun a => Fin.ext (by match a with | ⟨0, _⟩ => rfl | ⟨1, _⟩ => rfl | ⟨2, _⟩ => rfl)

/-- The reduction over the last axis drops it. -/
theorem reduces_d2 : S32x512x512.Reduces [2] S32x512 := by decide

/-- The index (b, p) with the coordinate h inserted on the dropped axis is (b, p, h). -/
theorem lift_d2_ix (b : Fin 32) (p h : Fin 512) : reduces_d2.lift (ix2 b p) h = ix3 b p h :=
  funext fun a => Fin.ext (by match a with | ⟨0, _⟩ => rfl | ⟨1, _⟩ => rfl | ⟨2, _⟩ => rfl)

/-! ## The stages at coordinates, innermost first -/

/-- The first product is the score matrix. -/
theorem v0_at (b : Fin 32) (p h : Fin 512) :
    val_main_v0 (F := Ideal) x0 x1 (ix3 b p h) = Cert.Attend.score (matP x0 b) (matH x1 b) p h := by
  rw [val_main_v0_apply]
  refine Finset.sum_congr rfl fun d _ => ?_
  rw [lidx_v0_ix, ridx_v0_ix]

/-- The selected constant, broadcast along p, is the additive mask of h. -/
theorem v4_at (b : Fin 32) (p h : Fin 512) :
    val_main_v4 (F := Ideal) x3 (ix3 b p h) = maskH x3 b h := by
  rw [val_main_v4_apply, val_main_v3_apply, idx_v3_v4_ix, val_main_v1_apply, val_main_call0_v1_apply, val_main_cst_apply,
    val_main_call0_v2_apply, val_main_call0_v0_apply, val_main_cst_0_apply]
  rfl

/-- The masked score. -/
theorem v5_at (b : Fin 32) (p h : Fin 512) :
    val_main_v5 (F := Ideal) x0 x1 x3 (ix3 b p h) = Cert.Attend.rowLogit (matP x0 b) (matH x1 b) (maskH x3 b) p h := by
  rw [val_main_v5_apply, v0_at, v4_at]
  rfl

/-- The maximum-reduction over h is the fold of max over row p of the masked scores, from minus infinity. -/
theorem v6_at (b : Fin 32) (p : Fin 512) :
    val_main_v6 (F := Ideal) x0 x1 x3 (ix2 b p)
      = (Finset.univ : Finset (Fin 512)).fold max (Ideal.ofBits .f32 0xFF800000#32)
          (fun h => Cert.Attend.rowLogit (matP x0 b) (matH x1 b) (maskH x3 b) p h) := by
  unfold val_main_v6
  rw [Host.reduce_eq_fold_single FloatOps.maximumf _ _ reducesTo_S32x512x512_S32x512_d2 reduces_d2 h_S_ (ix2 b p)]
  have hf : (val_main_v5 (F := Ideal) x0 x1 x3 ∘ reduces_d2.lift (ix2 b p))
      = fun h : Fin 512 => Cert.Attend.rowLogit (matP x0 b) (matH x1 b) (maskH x3 b) p h :=
    funext fun h => by
      exact (congrArg (val_main_v5 (F := Ideal) x0 x1 x3) (lift_d2_ix b p h)).trans (v5_at x0 x1 x3 b p h)
  rw [hf]
  rfl

/-- The row maximum. -/
theorem v8_at (b : Fin 32) (p : Fin 512) :
    val_main_v8 (F := Ideal) x0 x1 x3 (ix2 b p) = Cert.Attend.rowMax (matP x0 b) (matH x1 b) (maskH x3 b) p := by
  rw [val_main_v8_apply, val_main_v7_apply, val_main_cst_4_apply, v6_at]
  rfl

/-- The row maximum broadcast along h. -/
theorem v10_at (b : Fin 32) (p h : Fin 512) :
    val_main_v10 (F := Ideal) x0 x1 x3 (ix3 b p h) = Cert.Attend.rowMax (matP x0 b) (matH x1 b) (maskH x3 b) p := by
  rw [val_main_v10_apply, val_main_v9_apply, idx_v9_v10_ix, v8_at]

/-- The exponential of the difference. -/
theorem v12_at (b : Fin 32) (p h : Fin 512) :
    val_main_v12 (F := Ideal) x0 x1 x3 (ix3 b p h) = Cert.Attend.rowExp (matP x0 b) (matH x1 b) (maskH x3 b) p h := by
  rw [val_main_v12_apply, val_main_v11_apply, v5_at, v10_at]
  rfl

/-- The row sum of the exponentials. -/
theorem v13_at (b : Fin 32) (p : Fin 512) :
    val_main_v13 (F := Ideal) x0 x1 x3 (ix2 b p) = Cert.Attend.rowSum (matP x0 b) (matH x1 b) (maskH x3 b) p := by
  rw [val_main_v13_apply, val_main_cst_5_apply, Ideal.ofBits_def, Ideal.ofBits_zero_f32, zero_add]
  refine Finset.sum_congr rfl fun h _ => ?_
  rw [idx_v13_ix, v12_at]

/-- The row sum broadcast along h. -/
theorem v15_at (b : Fin 32) (p h : Fin 512) :
    val_main_v15 (F := Ideal) x0 x1 x3 (ix3 b p h) = Cert.Attend.rowSum (matP x0 b) (matH x1 b) (maskH x3 b) p := by
  rw [val_main_v15_apply, val_main_v14_apply, idx_v14_v15_ix, v13_at]

/-- The softmax weight. -/
theorem v16_at (b : Fin 32) (p h : Fin 512) :
    val_main_v16 (F := Ideal) x0 x1 x3 (ix3 b p h) = Cert.Attend.rowWeight (matP x0 b) (matH x1 b) (maskH x3 b) p h := by
  rw [val_main_v16_apply, v12_at, v15_at]
  rfl

/-- The second product: row p's average of the rows of H. -/
theorem v17_at (b : Fin 32) (p d : Fin 512) :
    val_main_v17 (F := Ideal) x0 x1 x3 (ix3 b p d) = Cert.Attend.attendP (matP x0 b) (matH x1 b) (maskH x3 b) p d := by
  rw [val_main_v17_apply]
  refine Finset.sum_congr rfl fun h _ => ?_
  rw [lidx_v17_ix, ridx_v17_ix, v16_at]

/-- The difference piece. -/
theorem v33_at (b : Fin 32) (p d : Fin 512) :
    val_main_v33 (F := Ideal) x0 x1 x3 (ix3 b p d)
      = matP x0 b p d - Cert.Attend.attendP (matP x0 b) (matH x1 b) (maskH x3 b) p d := by
  rw [val_main_v33_apply, v17_at]
  rfl

/-- The product piece. -/
theorem v34_at (b : Fin 32) (p d : Fin 512) :
    val_main_v34 (F := Ideal) x0 x1 x3 (ix3 b p d)
      = matP x0 b p d * Cert.Attend.attendP (matP x0 b) (matH x1 b) (maskH x3 b) p d := by
  rw [val_main_v34_apply, v17_at]
  rfl

/-! ## The concatenation -/

/-- The four pieces the first result joins along its last axis, by piece number. -/
abbrev cat4 : Fin 4 → (⟨S32x512x512, .f32⟩ : BufTy).Contents (Elt Ideal) := fun n => match n with
  | ⟨0, _⟩ => x0
  | ⟨1, _⟩ => val_main_v17 (F := Ideal) x0 x1 x3
  | ⟨2, _⟩ => val_main_v33 (F := Ideal) x0 x1 x3
  | ⟨3, _⟩ => val_main_v34 (F := Ideal) x0 x1 x3

/-- Piece q at (b, p, d) is the q-th of the four joined values of the entry and its average. -/
theorem cat4_at (b : Fin 32) (p d : Fin 512) (q : Fin 4) :
    cat4 x0 x1 x3 q (ix3 b p d)
      = Cert.Attend.join4 (matP x0 b p d) (Cert.Attend.attendP (matP x0 b) (matH x1 b) (maskH x3 b) p d) q := by
  match q with
  | ⟨0, _⟩ => rfl
  | ⟨1, _⟩ => exact v17_at x0 x1 x3 b p d
  | ⟨2, _⟩ => exact v33_at x0 x1 x3 b p d
  | ⟨3, _⟩ => exact v34_at x0 x1 x3 b p d

/-- The reference's first result at batch b, row p, column k: the first result of the pair made of batch b of the
    two float arguments and of the second mask's additive form. -/
theorem v35_apply (x0 x1 : (⟨S32x512x512, .f32⟩ : BufTy).Contents (Elt Ideal)) (x3 : (⟨S32x512, .i1⟩ : BufTy).Contents (Elt Ideal))
    (b : Fin 32) (p : Fin 512) (k : Fin 2048) :
    val_main_v35 (F := Ideal) x0 x1 x3 (ix3 b p k)
      = Cert.Attend.outP (fun p d => x0 (ix3 b p d)) (fun h d => x1 (ix3 b h d))
          (fun h => Cert.Attend.bias (x3 (ix2 b h))) p k := by
  unfold val_main_v35
  show concatenate S32x512x2048 2 (List.ofFn fun n : Fin 4 => (⟨S32x512x512, cat4 x0 x1 x3 n⟩ : (s : Shape) × (s.Idx → _))) _ (ix3 b p k) = _
  refine (concatenate_ofFn_apply (t := S32x512x2048) (s₁ := S32x512x512) (2 : Fin 3) (cat4 x0 x1 x3) _ rfl 512 rfl (ix3 b p k)
    (Cert.Attend.piece k) rfl (ix3 b p (Cert.Attend.feat k)) rfl
    (fun c hc => by match c with | ⟨0, _⟩ => rfl | ⟨1, _⟩ => rfl | ⟨2, _⟩ => exact absurd rfl hc)).trans ?_
  exact cat4_at x0 x1 x3 b p (Cert.Attend.feat k) (Cert.Attend.piece k)

end Cert.ReferenceIdeal.RefValue

end
-- ==== Proof.RefH.lean ====
import proofs.«152633_j22548578304859_1_alg».proof.Proof.RefRead
import proofs.«152633_j22548578304859_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-! The reference's stages that lead to its second result, each read at explicit coordinates as the function of
    Spec it computes, innermost first. -/
namespace ColSoftmax

variable (x0 x1 : (⟨S32x512x512, .f32⟩ : BufTy).Contents (Elt Ideal)) (x2 : (⟨S32x512, .i1⟩ : BufTy).Contents (Elt Ideal))

/-- Batch `b` of the first float argument: rows p, features d. -/
abbrev Pb (b : Fin 32) : Fin 512 → Fin 512 → EReal := fun p d => x0 (ix3 b p d)
/-- Batch `b` of the second float argument: rows h, features d. -/
abbrev Hb (b : Fin 32) : Fin 512 → Fin 512 → EReal := fun h d => x1 (ix3 b h d)
/-- Batch `b` of the first mask, in its additive form. -/
abbrev bpb (b : Fin 32) : Fin 512 → EReal := fun p => Cert.Attend.bias (x2 (ix2 b p))

/-! ## The score: the first contraction, over the features -/

/-- The left operand's index in the first contraction at (b, p, h), feature d: (b, p, d). -/
theorem lidx_v0_at (b : Fin 32) (p h d : Fin 512) : lidx_main_v0 (ix3 b p h) d = ix3 b p d :=
  funext fun a => Fin.ext (by match a with | ⟨0, _⟩ => rfl | ⟨1, _⟩ => rfl | ⟨2, _⟩ => rfl)

/-- The right operand's index in the first contraction at (b, p, h), feature d: (b, h, d). -/
theorem ridx_v0_at (b : Fin 32) (p h d : Fin 512) : ridx_main_v0 (ix3 b p h) d = ix3 b h d :=
  funext fun a => Fin.ext (by match a with | ⟨0, _⟩ => rfl | ⟨1, _⟩ => rfl | ⟨2, _⟩ => rfl)

/-- The first contraction at (b, p, h) is the score of row p against row h in batch b. -/
theorem v0_at (b : Fin 32) (p h : Fin 512) :
    val_main_v0 (F := Ideal) x0 x1 (ix3 b p h) = Cert.Attend.score (Pb x0 b) (Hb x1 b) p h := by
  rw [val_main_v0_apply]
  unfold Cert.Attend.score
  exact Finset.sum_congr rfl fun d _ => by rw [lidx_v0_at, ridx_v0_at]

/-! ## The mask's additive form, spread along h -/

/-- The mask spread along h is read at (b, p). -/
theorem idx_v19_at (b : Fin 32) (p h : Fin 512) : idx_main_v18 (idx_main_v19 (ix3 b p h)) = ix2 b p :=
  funext fun a => Fin.ext (by match a with | ⟨0, _⟩ => rfl | ⟨1, _⟩ => rfl)

/-- The selected constant at (b, p, h): minus infinity where the mask bit of (b, p) is set, zero elsewhere. -/
theorem v19_at (b : Fin 32) (p h : Fin 512) :
    val_main_v19 (F := Ideal) x2 (ix3 b p h) = Cert.Attend.bias (x2 (ix2 b p)) := by
  rw [val_main_v19_apply, val_main_v18_apply, idx_v19_at, val_main_v2_apply, val_main_call1_v1_apply,
    val_main_call1_v2_apply, val_main_cst_1_apply, val_main_call1_v0_apply, val_main_cst_2_apply]
  rfl

/-- The masked score at (b, p, h): the score plus the additive mask of p. -/
theorem v20_at (b : Fin 32) (p h : Fin 512) :
    val_main_v20 (F := Ideal) x0 x1 x2 (ix3 b p h) = Cert.Attend.colLogit (Pb x0 b) (Hb x1 b) (bpb x2 b) p h := by
  rw [val_main_v20_apply, v0_at, v19_at]
  rfl

/-! ## The maximum along p -/

/-- The reduction by maximum along p at (b, h): the fold of `max` from minus infinity over p of the masked scores. -/
theorem v21_at (b : Fin 32) (h : Fin 512) :
    val_main_v21 (F := Ideal) x0 x1 x2 (ix2 b h)
      = (Finset.univ : Finset (Fin 512)).fold max (Ideal.ofBits .f32 0xFF800000#32)
          (fun p => Cert.Attend.colLogit (Pb x0 b) (Hb x1 b) (bpb x2 b) p h) := by
  have hR : S32x512x512.Reduces [1] S32x512 := by decide
  unfold val_main_v21
  rw [Host.reduce_eq_fold_single FloatOps.maximumf _ _ _ hR _ (ix2 b h)]
  have hf : (val_main_v20 (F := Ideal) x0 x1 x2 ∘ hR.lift (ix2 b h))
      = fun p : Fin 512 => Cert.Attend.colLogit (Pb x0 b) (Hb x1 b) (bpb x2 b) p h := funext fun p => by
    have e : hR.lift (ix2 b h) p = ix3 b p h :=
      funext fun a => Fin.ext (by match a with | ⟨0, _⟩ => rfl | ⟨1, _⟩ => rfl | ⟨2, _⟩ => rfl)
    show val_main_v20 (F := Ideal) x0 x1 x2 (hR.lift (ix2 b h) p) = _
    rw [e]
    exact v20_at x0 x1 x2 b p h
  rw [hf]
  rfl

/-- Once more `max` with minus infinity: the column maximum. -/
theorem v23_at (b : Fin 32) (h : Fin 512) :
    val_main_v23 (F := Ideal) x0 x1 x2 (ix2 b h) = Cert.Attend.colMax (Pb x0 b) (Hb x1 b) (bpb x2 b) h := by
  rw [val_main_v23_apply, val_main_v22_apply, val_main_cst_7_apply, v21_at]
  rfl

/-! ## The exponentials, their sum along p, the weights -/

/-- The column maximum spread along p is read at (b, h). -/
theorem idx_v25_at (b : Fin 32) (p h : Fin 512) : idx_main_v24 (idx_main_v25 (ix3 b p h)) = ix2 b h :=
  funext fun a => Fin.ext (by match a with | ⟨0, _⟩ => rfl | ⟨1, _⟩ => rfl)

/-- The exponential of the masked score less the column maximum. -/
theorem v27_at (b : Fin 32) (p h : Fin 512) :
    val_main_v27 (F := Ideal) x0 x1 x2 (ix3 b p h) = Cert.Attend.colExp (Pb x0 b) (Hb x1 b) (bpb x2 b) p h := by
  rw [val_main_v27_apply, val_main_v26_apply, val_main_v25_apply, val_main_v24_apply, idx_v25_at, v20_at, v23_at]
  rfl

/-- The summand of the sum along p at (b, h), coordinate p: (b, p, h). -/
theorem idx_v28_at (b : Fin 32) (p h : Fin 512) : idx_main_v28 (ix2 b h) p = ix3 b p h :=
  funext fun a => Fin.ext (by match a with | ⟨0, _⟩ => rfl | ⟨1, _⟩ => rfl | ⟨2, _⟩ => rfl)

/-- The sum along p from the zero word: the column sum. -/
theorem v28_at (b : Fin 32) (h : Fin 512) :
    val_main_v28 (F := Ideal) x0 x1 x2 (ix2 b h) = Cert.Attend.colSum (Pb x0 b) (Hb x1 b) (bpb x2 b) h := by
  rw [val_main_v28_apply, val_main_cst_8_apply, Ideal.ofBits_def, Ideal.ofBits_zero_f32, zero_add]
  unfold Cert.Attend.colSum
  exact Finset.sum_congr rfl fun p _ => by rw [idx_v28_at, v27_at]

/-- The column sum spread along p is read at (b, h). -/
theorem idx_v30_at (b : Fin 32) (p h : Fin 512) : idx_main_v29 (idx_main_v30 (ix3 b p h)) = ix2 b h :=
  funext fun a => Fin.ext (by match a with | ⟨0, _⟩ => rfl | ⟨1, _⟩ => rfl)

/-- The quotient: the softmax weight along p. -/
theorem v31_at (b : Fin 32) (p h : Fin 512) :
    val_main_v31 (F := Ideal) x0 x1 x2 (ix3 b p h) = Cert.Attend.colWeight (Pb x0 b) (Hb x1 b) (bpb x2 b) p h := by
  rw [val_main_v31_apply, val_main_v30_apply, val_main_v29_apply, idx_v30_at, v27_at, v28_at]
  rfl

/-! ## The second contraction, over p -/

/-- The left operand's index in the second contraction at (b, h, d), coordinate p: (b, p, h). -/
theorem lidx_v32_at (b : Fin 32) (h d p : Fin 512) : lidx_main_v32 (ix3 b h d) p = ix3 b p h :=
  funext fun a => Fin.ext (by match a with | ⟨0, _⟩ => rfl | ⟨1, _⟩ => rfl | ⟨2, _⟩ => rfl)

/-- The right operand's index in the second contraction at (b, h, d), coordinate p: (b, p, d). -/
theorem ridx_v32_at (b : Fin 32) (h d p : Fin 512) : ridx_main_v32 (ix3 b h d) p = ix3 b p d :=
  funext fun a => Fin.ext (by match a with | ⟨0, _⟩ => rfl | ⟨1, _⟩ => rfl | ⟨2, _⟩ => rfl)

/-- The second contraction at (b, h, d): column h's average of the rows of the first argument's batch b. -/
theorem v32_at (b : Fin 32) (h d : Fin 512) :
    val_main_v32 (F := Ideal) x0 x1 x2 (ix3 b h d) = Cert.Attend.attendH (Pb x0 b) (Hb x1 b) (bpb x2 b) h d := by
  rw [val_main_v32_apply]
  unfold Cert.Attend.attendH
  exact Finset.sum_congr rfl fun p _ => by rw [lidx_v32_at, ridx_v32_at, v31_at]

/-! ## The four pieces joined along the last axis -/

/-- The four operands of the joining, by piece number. -/
abbrev Cat38 : Fin 4 → (S32x512x512.Idx → EReal) := fun n => match n with
  | ⟨0, _⟩ => x1
  | ⟨1, _⟩ => val_main_v32 (F := Ideal) x0 x1 x2
  | ⟨2, _⟩ => val_main_v36 (F := Ideal) x0 x1 x2
  | ⟨3, _⟩ => val_main_v37 (F := Ideal) x0 x1 x2

/-- The joined result at (b, h, k) is operand k / 512 at (b, h, k % 512). -/
theorem v38_cat (b : Fin 32) (h : Fin 512) (k : Fin 2048) :
    val_main_v38 (F := Ideal) x0 x1 x2 (ix3 b h k)
      = Cat38 x0 x1 x2 (Cert.Attend.piece k) (ix3 b h (Cert.Attend.feat k)) := by
  show concatenate S32x512x2048 2 (List.ofFn fun n : Fin 4 => (⟨S32x512x512, Cat38 x0 x1 x2 n⟩ : (s : Shape) × (s.Idx → _))) _ (ix3 b h k) = _
  exact concatenate_ofFn_apply (t := S32x512x2048) (s₁ := S32x512x512) (2 : Fin 3) (Cat38 x0 x1 x2) _ rfl 512 rfl
    (ix3 b h k) (Cert.Attend.piece k) rfl (ix3 b h (Cert.Attend.feat k)) rfl
    (fun c hc => by match c with | ⟨0, _⟩ => rfl | ⟨1, _⟩ => rfl | ⟨2, _⟩ => exact absurd rfl hc)

end ColSoftmax

open ColSoftmax

/-- The reference's second result at batch b, row h, column k: the second result of the pair made of batch b of the
    two float arguments and of the first mask's additive form. -/
theorem v38_apply (x0 x1 : (⟨S32x512x512, .f32⟩ : BufTy).Contents (Elt Ideal)) (x2 : (⟨S32x512, .i1⟩ : BufTy).Contents (Elt Ideal))
    (b : Fin 32) (h : Fin 512) (k : Fin 2048) :
    val_main_v38 (F := Ideal) x0 x1 x2 (ix3 b h k)
      = Cert.Attend.outH (fun p d => x0 (ix3 b p d)) (fun h d => x1 (ix3 b h d))
          (fun p => Cert.Attend.bias (x2 (ix2 b p))) h k := by
  rw [v38_cat]
  unfold Cert.Attend.outH
  generalize Cert.Attend.piece k = q
  generalize Cert.Attend.feat k = d
  match q with
  | ⟨0, _⟩ => rfl
  | ⟨1, _⟩ => exact v32_at x0 x1 x2 b h d
  | ⟨2, _⟩ =>
    show val_main_v36 (F := Ideal) x0 x1 x2 (ix3 b h d) = _
    rw [val_main_v36_apply, v32_at]
    rfl
  | ⟨3, _⟩ =>
    show val_main_v37 (F := Ideal) x0 x1 x2 (ix3 b h d) = _
    rw [val_main_v37_apply, v32_at]
    rfl

end Cert.ReferenceIdeal.RefValue

end
-- ==== Proof.lean ====
/-
  Two attention read-outs of a pair of sequences, the kernel against its jnp reference, over the extended reals.

  For each of 32 batch elements the programs take a 512 x 512 matrix `P` (rows p), a 512 x 512 matrix `H` (rows h)
  and a boolean mask per row of each.  Both form the score matrix `P Hᵀ`, add H's mask (minus infinity where set)
  along h and take the softmax along h, add P's mask along p and take the softmax along p, average the rows of `H`
  with the first weights and the rows of `P` with the second, and return for each matrix its rows joined with the
  averaged rows, their difference and their product (two results of shape [32, 512, 2048]).  The kernel does this one
  batch element per grid point, on blocks, with a matrix unit product into a zero accumulator and lane reductions; the
  reference does it on whole arrays with `dot_general` and `reduce`.  At the ideal instance these are the same
  sums, the same folds of `max` and the same quotients, operation by operation, so the two results are ONE function
  of the arguments (`Cert.Attend.outP`, `Cert.Attend.outH`, Proof/Spec.lean) and no algebraic law, hence no
  finiteness of the inputs, is needed: the precondition is never opened.

  The modules: Spec (the function, for one batch element); KerP / KerH (the kernel body's two output blocks are that
  function of the input blocks); Arrays (block t is batch element t, the blocks cover the results: the kernel's run);
  RefP / RefH (the reference's two results read at an index are that function of the batch element); RefRun / RefRead
  (the reference's run and its stages).  The three frames are the generated ones (the reference's: its run with the
  results dropped); the idealization rewrote nothing, so `preserves` is trivial.
-/
import proofs.«152633_j22548578304859_1_alg».proof.Defs
import proofs.«152633_j22548578304859_1_alg».proof.Proof.Gen.Kernel
import proofs.«152633_j22548578304859_1_alg».proof.Proof.Gen.Kernel.Skeleton
import proofs.«152633_j22548578304859_1_alg».proof.Proof.Gen.Kernel.Launch
import proofs.«152633_j22548578304859_1_alg».proof.Proof.Gen.Kernel.Points
import proofs.«152633_j22548578304859_1_alg».proof.Proof.Gen.Kernel.Frame
import proofs.«152633_j22548578304859_1_alg».proof.Proof.Gen.KernelIdeal
import proofs.«152633_j22548578304859_1_alg».proof.Proof.Gen.KernelIdeal.Skeleton
import proofs.«152633_j22548578304859_1_alg».proof.Proof.Gen.KernelIdeal.Launch
import proofs.«152633_j22548578304859_1_alg».proof.Proof.Gen.KernelIdeal.Points
import proofs.«152633_j22548578304859_1_alg».proof.Proof.Gen.KernelIdeal.Frame
import proofs.«152633_j22548578304859_1_alg».proof.Proof.Gen.ReferenceIdeal
import proofs.«152633_j22548578304859_1_alg».proof.Proof.Gen.Pre_finite_inputs
import proofs.«152633_j22548578304859_1_alg».proof.Proof.Gen.KernelIdeal.Value
import proofs.«152633_j22548578304859_1_alg».proof.Proof.RefRun
import proofs.«152633_j22548578304859_1_alg».proof.Proof.RefRead
import proofs.«152633_j22548578304859_1_alg».proof.Proof.Arrays
import proofs.«152633_j22548578304859_1_alg».proof.Proof.RefP
import proofs.«152633_j22548578304859_1_alg».proof.Proof.RefH
import Idealize.ShloMosaic.Adequacy
import Idealize.ShloMosaic.Init

noncomputable section

namespace Cert.Proof

open Idealize.ShloMosaic Idealize.SL.Sem Idealize.ShloMosaic.ValueIdx

/-- The word-level kernel runs and leaves its arguments as they were. -/
theorem frame_kernel : Cert.frame_Kernel :=
  fun m ρ _ => Cert.Kernel.Gen.frame m ρ

/-- So does the idealized kernel. -/
theorem frame_kernelIdeal : Cert.frame_KernelIdeal :=
  fun m ρ _ => Cert.KernelIdeal.Gen.frame m ρ

/-- The reference's run, its results dropped. -/
theorem frame_referenceIdeal : Cert.frame_ReferenceIdeal :=
  fun m ρ _ => (θ_run Cert.ReferenceIdeal.defs _ _).mono (fun _ h c => (h c).2.2)
    (Cert.ReferenceIdeal.Value.run (F := Ideal) m ρ)

/-- From arguments that agree, the kernel's two result arrays (Arrays.lean) and the reference's (its run, then its two
    results read index by index: RefP.lean, RefH.lean) are the same function of the arguments. -/
theorem algebraic : Cert.algebraic_KernelIdeal_ReferenceIdeal := by
  intro m ρ m' ρ' _ hagree
  refine ⟨fun c => Cert.KernelIdeal.ArrayValue.GP m c, fun c => Cert.KernelIdeal.ArrayValue.GH m c,
    Cert.KernelIdeal.ArrayValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v35_eq, (hagree c).1, (hagree c).2.1, (hagree c).2.2.2]
    funext i
    obtain ⟨b, p, k, rfl⟩ : ∃ (b : Fin 32) (p : Fin 512) (k : Fin 2048), i = ix3 b p k := ⟨i 0, i 1, i 2, eq_ix3 i⟩
    exact Cert.ReferenceIdeal.RefValue.v35_apply _ _ _ b p k
  · rw [Cert.ReferenceIdeal.Read.val_main_v38_eq, (hagree c).1, (hagree c).2.1, (hagree c).2.2.1]
    funext i
    obtain ⟨b, h, k, rfl⟩ : ∃ (b : Fin 32) (h : Fin 512) (k : Fin 2048), i = ix3 b h k := ⟨i 0, i 1, i 2, eq_ix3 i⟩
    exact Cert.ReferenceIdeal.RefValue.v38_apply _ _ _ b h k

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
